-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x40, .f32⟩
  | .hbm, ⟨58, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S1x40, .f32⟩
  | .local _ .vmem, ⟨15, _⟩ => ⟨S128x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Spec.lean ====
/-
  The two layers as functions of ROWS, over the extended reals.

  A layer takes two arrays of rows of 128 entries (the aggregated neighbours' features `A` and the nodes' own features
  `X`), two weight matrices and a bias, and gives row `r` the vector

      z_q = (∑ₖ A[r,k] · Wl[k,q]) + b_q + ∑ₖ X[r,k] · Wr[k,q].

  The first layer then clips at zero (`max z_q 0`); the second subtracts the row's maximum and the logarithm of the
  sum of the exponentials of the shifted row (the logarithm of a soft maximum). Entry (r, q) of a layer's result
  depends on row `r` of `A` and of `X` only: so a layer of a block of rows IS that block of the layer of all rows
  (`layer1_rows`, `layer2_rows`), whatever the number of rows; this is what lets a result computed block of rows by
  block of rows be compared with one computed on the whole arrays.

  Last, the one arithmetic law the comparison needs: dividing by a positive real is multiplying by its reciprocal, for
  every extended real numerator (`mul_recip_eq_div`).
-/
import proofs.«178295_j49203145343455_1_alg».proof.Proof.LibAllReal
import Idealize.ShloMosaic.Lib.ValueIdx
import Idealize.ShloMosaic.PureOps.Ideal.Laws

noncomputable section

namespace Cert.Spec

open Idealize.ShloMosaic Idealize.ShloMosaic.ValueIdx
open scoped BigOperators

/-- The extended real the zero word of the 32-bit format denotes. -/
abbrev zeroW : EReal := Ideal.ofBits .f32 0x00000000#32
/-- The extended real the word `0xFF800000` of the 32-bit format denotes (minus infinity). -/
abbrev negInfW : EReal := Ideal.ofBits .f32 0xFF800000#32

/-- The row index of an index of a two-axis array, as a number below the number of rows. -/
abbrev rowOf {N C : Nat} (i : (⟨2, ![N, C]⟩ : Shape).Idx) : Fin N := ⟨(i 0).val, idx2_lt0 i⟩
/-- The column index of an index of a two-axis array, as a number below the number of columns. -/
abbrev colOf {N C : Nat} (i : (⟨2, ![N, C]⟩ : Shape).Idx) : Fin C := ⟨(i 1).val, idx2_lt1 i⟩

theorem ix2_rowOf_colOf {N C : Nat} (i : (⟨2, ![N, C]⟩ : Shape).Idx) : ix2 (rowOf i) (colOf i) = i :=
  (eq_ix2 i).symm

@[simp] theorem rowOf_ix2 {N C : Nat} (p : Fin N) (q : Fin C) : rowOf (ix2 p q) = p := rfl
@[simp] theorem colOf_ix2 {N C : Nat} (p : Fin N) (q : Fin C) : colOf (ix2 p q) = q := rfl

/-- One row of a layer before its activation: `(∑ₖ aₖ · Wl[k,q]) + b_q + ∑ₖ xₖ · Wr[k,q]`. -/
def lin {K C : Nat} (a x : Fin K → EReal) (Wl Wr : (⟨2, ![K, C]⟩ : Shape).Idx → EReal) (b : Fin C → EReal)
    (q : Fin C) : EReal :=
  (∑ k : Fin K, a k * Wl (ix2 k q)) + b q + ∑ k : Fin K, x k * Wr (ix2 k q)

/-- The largest entry of a row (from minus infinity). -/
def rowMax {C : Nat} (z : Fin C → EReal) : EReal := (Finset.univ : Finset (Fin C)).fold max negInfW z

/-- A row less its maximum, less the logarithm of the sum of the exponentials of the row less its maximum. -/
def logSoftmaxRow {C : Nat} (z : Fin C → EReal) (q : Fin C) : EReal :=
  (z q - rowMax z) - Ideal.log (∑ j : Fin C, Ideal.exp (z j - rowMax z))

/-- The first layer: each row's linear form, clipped below at zero. -/
def layer1 {N : Nat} (A X : (⟨2, ![N, 128]⟩ : Shape).Idx → EReal) (Wl Wr : (⟨2, ![128, 128]⟩ : Shape).Idx → EReal)
    (b : Fin 128 → EReal) : (⟨2, ![N, 128]⟩ : Shape).Idx → EReal :=
  fun i => max (lin (fun k => A (ix2 (rowOf i) k)) (fun k => X (ix2 (rowOf i) k)) Wl Wr b (colOf i)) zeroW

/-- The second layer: each row's linear form, then the logarithm of the soft maximum along the row. -/
def layer2 {N : Nat} (A H : (⟨2, ![N, 128]⟩ : Shape).Idx → EReal) (Wl Wr : (⟨2, ![128, 40]⟩ : Shape).Idx → EReal)
    (b : Fin 40 → EReal) : (⟨2, ![N, 40]⟩ : Shape).Idx → EReal :=
  fun i => logSoftmaxRow (lin (fun k => A (ix2 (rowOf i) k)) (fun k => H (ix2 (rowOf i) k)) Wl Wr b) (colOf i)

/-- The first layer of a block of rows is that block of the first layer: if row `p` of the small arrays is row `ρ p` of
    the large ones, entry (p, q) of the one result is entry (ρ p, q) of the other. -/
theorem layer1_rows {n N : Nat} (ρ : Fin n → Fin N)
    (A X : (⟨2, ![N, 128]⟩ : Shape).Idx → EReal) (A' X' : (⟨2, ![n, 128]⟩ : Shape).Idx → EReal)
    (Wl Wr : (⟨2, ![128, 128]⟩ : Shape).Idx → EReal) (b : Fin 128 → EReal)
    (hA : ∀ p k, A' (ix2 p k) = A (ix2 (ρ p) k)) (hX : ∀ p k, X' (ix2 p k) = X (ix2 (ρ p) k)) (p : Fin n) (q : Fin 128) :
    layer1 A' X' Wl Wr b (ix2 p q) = layer1 A X Wl Wr b (ix2 (ρ p) q) := by
  unfold layer1
  simp only [rowOf_ix2, colOf_ix2]
  rw [show (fun k => A' (ix2 p k)) = fun k => A (ix2 (ρ p) k) from funext (hA p),
    show (fun k => X' (ix2 p k)) = fun k => X (ix2 (ρ p) k) from funext (hX p)]

/-- The second layer of a block of rows is that block of the second layer. -/
theorem layer2_rows {n N : Nat} (ρ : Fin n → Fin N)
    (A H : (⟨2, ![N, 128]⟩ : Shape).Idx → EReal) (A' H' : (⟨2, ![n, 128]⟩ : Shape).Idx → EReal)
    (Wl Wr : (⟨2, ![128, 40]⟩ : Shape).Idx → EReal) (b : Fin 40 → EReal)
    (hA : ∀ p k, A' (ix2 p k) = A (ix2 (ρ p) k)) (hH : ∀ p k, H' (ix2 p k) = H (ix2 (ρ p) k)) (p : Fin n) (q : Fin 40) :
    layer2 A' H' Wl Wr b (ix2 p q) = layer2 A H Wl Wr b (ix2 (ρ p) q) := by
  unfold layer2
  simp only [rowOf_ix2, colOf_ix2]
  rw [show (fun k => A' (ix2 p k)) = fun k => A (ix2 (ρ p) k) from funext (hA p),
    show (fun k => H' (ix2 p k)) = fun k => H (ix2 (ρ p) k) from funext (hH p)]

/-- Minus infinity is below everything: taking the maximum with it changes nothing. -/
theorem max_negInfW (y : EReal) : max negInfW y = y := by
  show max (Ideal.ofBits .f32 0xFF800000#32) y = y
  simp [Ideal.ofBits, Ideal.ieee]

/-- The maximum of a row from minus infinity is at least minus infinity, so one more maximum with it is idle. -/
theorem max_negInfW_rowMax {C : Nat} (z : Fin C → EReal) : max negInfW (rowMax z) = rowMax z := max_negInfW _

/-- Dividing by a positive real is multiplying by its reciprocal, whatever the numerator: `a · (1 / r) = a / r` on the
    extended reals, the reciprocal itself being `1 / r` computed there. -/
theorem mul_recip_eq_div (a : EReal) {r : ℝ} (hr : 0 < r) (one : EReal) (h1 : one = ((1 : ℝ) : EReal)) :
    a * Ideal.div one (r : EReal) = Ideal.div a (r : EReal) := by
  rw [h1, Ideal.div_coe hr.ne', Ideal.div_coe hr.ne', ← EReal.coe_mul, one_mul]

/-- The elementwise maximum of an array of reals and an array of positive reals is an array of positive reals. -/
theorem AllPos.maximumf_right {s : Shape} {φ : FTy} {x y : FVec Ideal s φ} (hx : AllReal x) (hy : AllPos y) :
    AllPos (maximumf (F := Ideal) x y) := by
  intro i
  obtain ⟨a, ha⟩ := hx i
  obtain ⟨b, hb, hyb⟩ := hy i
  exact ⟨max a b, lt_max_of_lt_right hb, by show max (x i) (y i) = _; rw [ha, hyb, coe_max_real]⟩

end Cert.Spec

end
-- ==== Proof.KPay1.lean ====
/-
  The first kernel's body, read at an index: what it stores at row p, column q of its block of rows is the first
  layer's value there — the two matrix products as sums over the 128 inner indices, the bias row, the clip at zero.
  (The narrowing of a product's operands to a shorter float format is the identity over the extended reals.)
-/
import proofs.«178295_j49203145343455_1_alg».proof.Proof.Gen.KernelIdeal.Skeleton
import proofs.«178295_j49203145343455_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay1

open Cert.KernelIdeal Cert.KernelIdeal.Gen Idealize.ShloMosaic Idealize.ShloMosaic.ValueIdx
open scoped BigOperators

/-! ## The product's index maps, axis by axis

  The product contracts axis 1 of its left operand with axis 0 of its right one. At result index i and contraction
  index c, the left operand is read at (row of i, c) and the right one at (c, column of i). -/

/-- The left operand's row is the result's row. -/
theorem lhs_axis0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction index. -/
theorem lhs_axis1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction index. -/
theorem rhs_axis0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the result's column. -/
theorem rhs_axis1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A matrix product into the zero array, read at (p, q): the sum over the 128 inner indices k of the left
    operand at (p, k) times the right operand at (k, q). -/
theorem matmul_zero_at {φ₁ φ₂ : FTy} (y : FVec Ideal S5000x128 φ₁) (w : FVec Ideal S128x128 φ₂) (p : Fin 5000) (q : Fin 128) :
    FloatOps.matmul dot_S5000x128_S128x128_S5000x128_1_0_0_1_n_n none y w (constant (F := Ideal) S5000x128 .f32 0x00000000#32) (ix2 p q)
      = ∑ k : Fin 128, y (ix2 p k) * w (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-- The one-row bias, repeated down the 5000 rows, reads at (p, q) the bias at (0, q). -/
theorem bias_at (b : Vec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) fun a => ?_
  match a with
  | ⟨0, _⟩ => rfl
  | ⟨1, _⟩ => rfl

/-- The first kernel's stored value is the first layer of its blocks of rows. -/
theorem k0_pay1_eq (x0 x1 : Vec Ideal S5000x128 .f32) (wl wr : Vec Ideal S128x128 .f32) (b : Vec Ideal S1x128 .f32) :
    k0_pay1 (F := Ideal) x0 x1 wl wr b = Cert.Spec.layer1 x0 x1 wl wr (fun q => b (ix2 (0 : Fin 1) q)) := by
  funext i
  obtain ⟨p, q, rfl⟩ : ∃ (p : Fin 5000) (q : Fin 128), i = ix2 p q := ⟨_, _, eq_ix2 i⟩
  unfold k0_pay1 Cert.Spec.layer1 Cert.Spec.lin
  simp only [Cert.Spec.rowOf_ix2, Cert.Spec.colOf_ix2, shapeCast_self, matmul]
  rw [maximumf_apply, addf_apply, addf_apply, matmul_zero_at, matmul_zero_at, bias_at]
  rfl

end Cert.KernelIdeal.Pay1

end
-- ==== Proof.SpecRows.lean ====
/-
  A layer of a block of rows, with the block's own copies of the weights and the bias.

  A kernel reads its weights and bias through windows of their own, so what it holds are copies equal to the arrays.
  With equal weights and bias, and row `p` of the small feature arrays being row `ρ p` of the large ones, entry (p, q) of
  the layer of the small arrays is entry (ρ p, q) of the layer of the large ones.
-/
import proofs.«178295_j49203145343455_1_alg».proof.Proof.Spec

noncomputable section

namespace Cert.Spec

open Idealize.ShloMosaic Idealize.ShloMosaic.ValueIdx

theorem layer1_block {n N : Nat} (ρ : Fin n → Fin N)
    (A X : (⟨2, ![N, 128]⟩ : Shape).Idx → EReal) (A' X' : (⟨2, ![n, 128]⟩ : Shape).Idx → EReal)
    (Wl Wr Wl' Wr' : (⟨2, ![128, 128]⟩ : Shape).Idx → EReal) (b b' : Fin 128 → EReal)
    (hA : ∀ p k, A' (ix2 p k) = A (ix2 (ρ p) k)) (hX : ∀ p k, X' (ix2 p k) = X (ix2 (ρ p) k))
    (hWl : Wl' = Wl) (hWr : Wr' = Wr) (hb : b' = b) (p : Fin n) (q : Fin 128) :
    layer1 A' X' Wl' Wr' b' (ix2 p q) = layer1 A X Wl Wr b (ix2 (ρ p) q) := by
  subst hWl hWr hb
  exact layer1_rows ρ A X A' X' Wl' Wr' b' hA hX p q

theorem layer2_block {n N : Nat} (ρ : Fin n → Fin N)
    (A H : (⟨2, ![N, 128]⟩ : Shape).Idx → EReal) (A' H' : (⟨2, ![n, 128]⟩ : Shape).Idx → EReal)
    (Wl Wr Wl' Wr' : (⟨2, ![128, 40]⟩ : Shape).Idx → EReal) (b b' : Fin 40 → EReal)
    (hA : ∀ p k, A' (ix2 p k) = A (ix2 (ρ p) k)) (hH : ∀ p k, H' (ix2 p k) = H (ix2 (ρ p) k))
    (hWl : Wl' = Wl) (hWr : Wr' = Wr) (hb : b' = b) (p : Fin n) (q : Fin 40) :
    layer2 A' H' Wl' Wr' b' (ix2 p q) = layer2 A H Wl Wr b (ix2 (ρ p) q) := by
  subst hWl hWr hb
  exact layer2_rows ρ A H A' H' Wl' Wr' b' hA hH p q

end Cert.Spec

end
-- ==== Proof.KCover1.lean ====
/-
  What the first kernel region leaves in its output array: the first layer of the arrays it finds.

  The region walks 20 blocks of 5000 rows. At block `t` its body sees rows `5000·t … 5000·t + 4999` of the aggregated
  features and of the nodes' features (windows 0 and 1), and the two weight matrices and the bias row whole (windows 2,
  4 and 3: one block each, at index 0), and writes back the first layer of those blocks as rows `5000·t …` of the
  output. A layer's entry (r, q) depends on row `r` only, so the block written at `t` IS that block of the first layer
  of the whole arrays; the 20 blocks tile the 100000 rows; hence the output array ends holding the first layer.
-/
import proofs.«178295_j49203145343455_1_alg».proof.Proof.Gen.KernelIdeal.Frame
import proofs.«178295_j49203145343455_1_alg».proof.Proof.KPay1
import proofs.«178295_j49203145343455_1_alg».proof.Proof.SpecRows
import Idealize.ShloMosaic.Lib.Pipeline.Value

set_option maxRecDepth 16384

noncomputable section

namespace Cert.KernelIdeal.Cover1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the region finds, at their literal types: aggregated features, features, the two weight matrices,
    the bias row. -/
abbrev arrA (c : Dev nD) : Vec Ideal S100000x128 .f32 := V c (Pipeline.arrRef spec0 0)
abbrev arrX (c : Dev nD) : Vec Ideal S100000x128 .f32 := V c (Pipeline.arrRef spec0 1)
abbrev arrWl (c : Dev nD) : Vec Ideal S128x128 .f32 := V c (Pipeline.arrRef spec0 2)
abbrev arrB (c : Dev nD) : Vec Ideal S1x128 .f32 := V c (Pipeline.arrRef spec0 3)
abbrev arrWr (c : Dev nD) : Vec Ideal S128x128 .f32 := V c (Pipeline.arrRef spec0 4)

/-- The first layer of the arrays the region finds. -/
def G (c : Dev nD) : Vec Ideal S100000x128 .f32 :=
  Cert.Spec.layer1 (arrA V c) (arrX V c) (arrWl V c) (arrWr V c) (fun q => arrB V c (ix2 (0 : Fin 1) q))

/-- The printed index maps over the 20 points: the two row windows move with the output's block of rows, every
    other block index is zero, and the output's row-block index is below 20. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows of the output is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The row of the whole arrays that row `p` of point `t`'s blocks is. -/
def rowAt (t : Fin cfg0.N) (p : Fin 5000) : Fin 100000 :=
  ⟨win0_5.index t (0 : Fin 2) * 5000 + p.val, by have := (idx_facts t).2.2.2.2.2.2.2.2.2.2.2; have := p.isLt; omega⟩

/-- WHAT POINT `t` WRITES BACK is block `t` of the first layer of the arrays the region finds. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  rw [Cert.KernelIdeal.Pay1.k0_pay1_eq]
  obtain ⟨e00, e01, e10, e11, e20, e21, e30, e31, e40, e41, e51, e5⟩ := idx_facts t
  funext j
  obtain ⟨p, q, rfl⟩ : ∃ (p : Fin 5000) (q : Fin 128), j = ix2 p q := ⟨_, _, eq_ix2 j⟩
  show Cert.Spec.layer1 (iblk0 V c 0 t) (iblk0 V c 1 t) (iblk0 V c 2 t) (iblk0 V c 4 t) (fun q => iblk0 V c 3 t (ix2 (0 : Fin 1) q)) (ix2 p q)
      = G V c (((cfg0.win 5).blk t).view.emb (ix2 p q))
  have hemb : ((cfg0.win 5).blk t).view.emb (ix2 p q) = ix2 (rowAt t p) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  rw [hemb]
  unfold G
  refine Cert.Spec.layer1_block (rowAt t) (arrA V c) (arrX V c) (iblk0 V c 0 t) (iblk0 V c 1 t) (arrWl V c) (arrWr V c)
    (iblk0 V c 2 t) (iblk0 V c 4 t) (fun q => arrB V c (ix2 (0 : Fin 1) q)) (fun q => iblk0 V c 3 t (ix2 (0 : Fin 1) q))
    ?_ ?_ ?_ ?_ ?_ p q
  · intro p k
    show V c (Pipeline.arrRef spec0 0) (((cfg0.win 0).blk t).view.emb (ix2 p k)) = V c (Pipeline.arrRef spec0 0) (ix2 (rowAt t p) k)
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro p k
    show V c (Pipeline.arrRef spec0 1) (((cfg0.win 1).blk t).view.emb (ix2 p k)) = V c (Pipeline.arrRef spec0 1) (ix2 (rowAt t p) k)
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext k
    show V c (Pipeline.arrRef spec0 3) (((cfg0.win 3).blk t).view.emb (ix2 (0 : Fin 1) k)) = V c (Pipeline.arrRef spec0 3) (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The 20 blocks of 5000 rows tile the 100000 rows: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the first layer of the arrays the region finds. -/
theorem final (c : Dev nD) : (dat0 (F := Ideal) V c).arrAt 5 cfg0.N = G V c :=
  (dat0 (F := Ideal) V c).arrAt_eq_of_cover 5 (G V c) (fun t _ => flushed_eq V c t) cover

end Cert.KernelIdeal.Cover1

end
-- ==== Proof.KPay2.lean ====
/-
  The second kernel's body, read at an index: what it stores at row p, column q of its block of rows is the second
  layer's value there — the linear form as in the first kernel (40 columns), the row's maximum as a fold of `max` from
  minus infinity, the sum of the exponentials of the shifted row, its logarithm.
-/
import proofs.«178295_j49203145343455_1_alg».proof.Proof.Gen.KernelIdeal.Skeleton
import proofs.«178295_j49203145343455_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay2

open Cert.KernelIdeal Cert.KernelIdeal.Gen Idealize.ShloMosaic Idealize.ShloMosaic.ValueIdx
open scoped BigOperators

/-! ## The product's operand indices, axis by axis -/

theorem lhs_axis0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem lhs_axis1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c

theorem rhs_axis0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c

theorem rhs_axis1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- A product into the zero array, read at row p and column q: the sum over the 128 contracted coordinates. -/
theorem matmul_read {φ₁ φ₂ : FTy} (X : FVec Ideal S5000x128 φ₁) (W : FVec Ideal S128x40 φ₂) (p : Fin 5000) (q : Fin 40) :
    matmul dot_S5000x128_S128x40_S5000x40_1_0_0_1_n_n none X W (constant (F := Ideal) S5000x40 .f32 0x00000000#32) (ix2 p q)
      = ∑ k : Fin 128, X (ix2 p k) * W (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-! ## Layout operations of the row statistics, read at an index -/

/-- A vector of `a` entries cast to one column reads, at (i, u), entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index p with column k put back is (p, k). -/
theorem lift_row (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- The maximum along the columns from minus infinity, at row p, is the row's maximum. -/
theorem rowMax_read (Z : FVec Ideal S5000x40 .f32) (p : Fin 5000) :
    multiReduction (F := Ideal) .maximumf [1] S5000 Z 0xFF800000#32 reduces_S5000x40_S5000 (.inl rfl) rfl (ix1 p)
      = Cert.Spec.rowMax (fun c : Fin 40 => Z (ix2 p c)) := by
  refine (Ideal.multiReduction_maximumf_single Z _ reduces_S5000x40_S5000 _ _ (ix1 p)).trans ?_
  unfold Cert.Spec.rowMax
  have hf : (Z ∘ reduces_S5000x40_S5000.lift (ix1 p)) = fun c : Fin 40 => Z (ix2 p c) :=
    funext fun k => congrArg Z (lift_row _ p k)
  exact congrArg (fun f => Finset.fold max (Ideal.ofBits .f32 0xFF800000#32) f (Finset.univ : Finset (Fin 40))) hf

/-- The sum along the columns, at row p, is the sum of the row. -/
theorem rowSum_read (Z : FVec Ideal S5000x40 .f32) (p : Fin 5000) :
    multiReduction (F := Ideal) .add [1] S5000 Z 0x00000000#32 reduces_S5000x40_S5000 (.inl rfl) rfl (ix1 p)
      = ∑ c : Fin 40, Z (ix2 p c) := by
  refine (Ideal.multiReduction_add_single Z _ reduces_S5000x40_S5000 _ _ (ix1 p)).trans ?_
  exact Finset.sum_congr rfl fun k _ => congrArg Z (lift_row _ p k)

/-! ## The two halves of the body -/

/-- The body's linear form: the two products into zero, the bias row broadcast over the rows, added in the body's order. -/
def linForm (x0 x1 : Vec Ideal S5000x128 .f32) (wl wr : Vec Ideal S128x40 .f32) (b : Vec Ideal S1x40 .f32) :
    FVec Ideal S5000x40 .f32 :=
  addf
    (addf
      (matmul dot_S5000x128_S128x40_S5000x40_1_0_0_1_n_n none
        (truncf .bf16 (shapeCast S5000x128 x0 shapeCasts_S5000x128_S5000x128) bitsLt_bf16_f32)
        (truncf .bf16 wl bitsLt_bf16_f32) (constant S5000x40 .f32 0x00000000#32))
      (broadcastTo S5000x40 (shapeCast S1x40 b shapeCasts_S1x40_S1x40) broadcasts_S1x40_S5000x40))
    (matmul dot_S5000x128_S128x40_S5000x40_1_0_0_1_n_n none
      (truncf .bf16 (shapeCast S5000x128 x1 shapeCasts_S5000x128_S5000x128) bitsLt_bf16_f32)
      (truncf .bf16 wr bitsLt_bf16_f32) (constant S5000x40 .f32 0x00000000#32))

/-- The row maximum of an array, as a column broadcast back over the columns. -/
def maxCols (Z : FVec Ideal S5000x40 .f32) : FVec Ideal S5000x40 .f32 :=
  broadcastTo S5000x40
    (shapeCast S5000x1
      (multiReduction .maximumf [1] S5000 Z 0xFF800000#32 reduces_S5000x40_S5000 (.inl rfl) rfl)
      shapeCasts_S5000_S5000x1)
    broadcasts_S5000x1_S5000x40

/-- The logarithm of the row sums of an array, as a column broadcast back over the columns. -/
def logSumCols (E : FVec Ideal S5000x40 .f32) : FVec Ideal S5000x40 .f32 :=
  broadcastTo S5000x40
    (log
      (shapeCast S5000x1
        (multiReduction .add [1] S5000 E 0x00000000#32 reduces_S5000x40_S5000 (.inl rfl) rfl)
        shapeCasts_S5000_S5000x1))
    broadcasts_S5000x1_S5000x40

/-- The body after its linear form: the array less its row maxima, less the logarithm of the row sums of the
    exponentials of that difference. -/
def tail (Z : FVec Ideal S5000x40 .f32) : FVec Ideal S5000x40 .f32 :=
  subf (subf Z (maxCols Z)) (logSumCols (exp (subf Z (maxCols Z))))

/-- The body is the tail of its linear form (the intermediate values substituted). -/
theorem k1_pay1_split (x0 x1 : Vec Ideal S5000x128 .f32) (wl wr : Vec Ideal S128x40 .f32) (b : Vec Ideal S1x40 .f32) :
    k1_pay1 (F := Ideal) x0 x1 wl wr b = tail (linForm x0 x1 wl wr b) := rfl

/-- The linear form at row p, column q is the specification's linear form of row p of the two inputs. -/
theorem linForm_read (x0 x1 : Vec Ideal S5000x128 .f32) (wl wr : Vec Ideal S128x40 .f32) (b : Vec Ideal S1x40 .f32)
    (p : Fin 5000) (q : Fin 40) :
    linForm x0 x1 wl wr b (ix2 p q)
      = Cert.Spec.lin (fun k => x0 (ix2 p k)) (fun k => x1 (ix2 p k)) wl wr (fun c => b (ix2 (0 : Fin 1) c)) q := by
  unfold linForm Cert.Spec.lin
  rw [addf_apply, addf_apply, matmul_read, matmul_read, shapeCast_self, shapeCast_self, shapeCast_self,
    broadcastTo_1b_ab_apply]
  simp only [truncf_apply]

/-- The row maxima broadcast back, at (p, q): the maximum of row p. -/
theorem maxCols_read (Z : FVec Ideal S5000x40 .f32) (p : Fin 5000) (q : Fin 40) :
    maxCols Z (ix2 p q) = Cert.Spec.rowMax (fun c : Fin 40 => Z (ix2 p c)) := by
  unfold maxCols
  rw [broadcastTo_a1_ab_apply, shapeCast_a_a1_apply, rowMax_read]

/-- The logarithms of the row sums broadcast back, at (p, q): the logarithm of the sum of row p. -/
theorem logSumCols_read (E : FVec Ideal S5000x40 .f32) (p : Fin 5000) (q : Fin 40) :
    logSumCols E (ix2 p q) = Ideal.log (∑ c : Fin 40, E (ix2 p c)) := by
  unfold logSumCols
  rw [broadcastTo_a1_ab_apply]
  show Ideal.log (shapeCast S5000x1 _ shapeCasts_S5000_S5000x1 (ix2 p (0 : Fin 1))) = _
  rw [shapeCast_a_a1_apply, rowSum_read]

/-- The tail at (p, q) is the specification's row operation on row p, at column q. -/
theorem tail_read (Z : FVec Ideal S5000x40 .f32) (p : Fin 5000) (q : Fin 40) :
    tail Z (ix2 p q) = Cert.Spec.logSoftmaxRow (fun c : Fin 40 => Z (ix2 p c)) q := by
  unfold tail Cert.Spec.logSoftmaxRow
  rw [subf_apply, subf_apply, maxCols_read, logSumCols_read]
  refine congrArg (fun s => Z (ix2 p q) - Cert.Spec.rowMax (fun c : Fin 40 => Z (ix2 p c)) - Ideal.log s) ?_
  refine Finset.sum_congr rfl fun c _ => ?_
  show Ideal.exp (subf Z (maxCols Z) (ix2 p c)) = _
  rw [subf_apply, maxCols_read]

/-- The second kernel's stored value is the second layer of its blocks of rows. -/
theorem k1_pay1_eq (x0 x1 : Vec Ideal S5000x128 .f32) (wl wr : Vec Ideal S128x40 .f32) (b : Vec Ideal S1x40 .f32) :
    k1_pay1 (F := Ideal) x0 x1 wl wr b = Cert.Spec.layer2 x0 x1 wl wr (fun q => b (ix2 (0 : Fin 1) q)) := by
  funext i
  obtain ⟨p, q, rfl⟩ : ∃ (p : Fin 5000) (q : Fin 40), i = ix2 p q := ⟨_, _, eq_ix2 i⟩
  rw [k1_pay1_split, tail_read]
  unfold Cert.Spec.layer2
  simp only [Cert.Spec.rowOf_ix2, Cert.Spec.colOf_ix2]
  exact congrArg (fun z => Cert.Spec.logSoftmaxRow z q) (funext fun c => linForm_read x0 x1 wl wr b p c)

end Cert.KernelIdeal.Pay2

end
-- ==== Proof.KCover2.lean ====
/-
  What the second kernel region leaves in its output array: the second layer of the arrays it finds.

  The region walks 20 blocks of 5000 rows. At block `t` its body sees rows `5000·t … 5000·t + 4999` of the aggregated
  features and of the first layer's output (windows 0 and 1), and the two weight matrices and the bias row whole
  (windows 2, 4 and 3: one block each, at index 0), and writes back the second layer of those blocks as rows
  `5000·t …` of the output. A layer's entry (r, q) depends on row `r` only, so the block written at `t` IS that block
  of the second layer of the whole arrays; the 20 blocks tile the 100000 rows; hence the output array ends holding
  the second layer.
-/
import proofs.«178295_j49203145343455_1_alg».proof.Proof.Gen.KernelIdeal.Frame
import proofs.«178295_j49203145343455_1_alg».proof.Proof.KPay2
import proofs.«178295_j49203145343455_1_alg».proof.Proof.SpecRows
import Idealize.ShloMosaic.Lib.Pipeline.Value

set_option maxRecDepth 16384

noncomputable section

namespace Cert.KernelIdeal.Cover2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The arrays the region finds, at their literal types: aggregated features, the first layer's output, the two
    weight matrices, the bias row. -/
abbrev arrA (c : Dev nD) : Vec Ideal S100000x128 .f32 := V c (Pipeline.arrRef spec1 0)
abbrev arrH (c : Dev nD) : Vec Ideal S100000x128 .f32 := V c (Pipeline.arrRef spec1 1)
abbrev arrWl (c : Dev nD) : Vec Ideal S128x40 .f32 := V c (Pipeline.arrRef spec1 2)
abbrev arrB (c : Dev nD) : Vec Ideal S1x40 .f32 := V c (Pipeline.arrRef spec1 3)
abbrev arrWr (c : Dev nD) : Vec Ideal S128x40 .f32 := V c (Pipeline.arrRef spec1 4)

/-- The second layer of the arrays the region finds. -/
def G (c : Dev nD) : Vec Ideal S100000x40 .f32 :=
  Cert.Spec.layer2 (arrA V c) (arrH V c) (arrWl V c) (arrWr V c) (fun q => arrB V c (ix2 (0 : Fin 1) q))

theorem hz : (![0, 0] : Fin 2 → Nat) = fun _ => 0 := funext fun a => by fin_cases a <;> rfl

/-- The printed index maps over the 20 points: the two row windows move with the output's block of rows, every
    other block index is zero, and the output's row-block index is below 20. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block of rows of the output is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The row of the whole arrays that row p of point t's blocks is. -/
def rowAt (t : Fin cfg1.N) (p : Fin 5000) : Fin 100000 :=
  ⟨win1_5.index t (0 : Fin 2) * 5000 + p.val, by have := (idx_facts t).2.2.2.2.2.2.2.2.2.2.2; have := p.isLt; omega⟩

/-- WHAT POINT t WRITES BACK is block t of the second layer of the arrays the region finds. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x40) hz, View.ld_unit_zero (S := S1x40) hz]
  rw [Cert.KernelIdeal.Pay2.k1_pay1_eq]
  obtain ⟨e00, e01, e10, e11, e20, e21, e30, e31, e40, e41, e51, e5⟩ := idx_facts t
  funext j
  obtain ⟨p, q, rfl⟩ : ∃ (p : Fin 5000) (q : Fin 40), j = ix2 p q := ⟨_, _, eq_ix2 j⟩
  show Cert.Spec.layer2 (iblk1 V c 0 t) (iblk1 V c 1 t) (iblk1 V c 2 t) (iblk1 V c 4 t) (fun q => iblk1 V c 3 t (ix2 (0 : Fin 1) q)) (ix2 p q)
      = G V c (((cfg1.win 5).blk t).view.emb (ix2 p q))
  have hemb : ((cfg1.win 5).blk t).view.emb (ix2 p q) = ix2 (rowAt t p) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 40 + 1 * q.val = q.val; omega
  rw [hemb]
  unfold G
  refine Cert.Spec.layer2_block (rowAt t) (arrA V c) (arrH V c) (iblk1 V c 0 t) (iblk1 V c 1 t) (arrWl V c) (arrWr V c)
    (iblk1 V c 2 t) (iblk1 V c 4 t) (fun q => arrB V c (ix2 (0 : Fin 1) q)) (fun q => iblk1 V c 3 t (ix2 (0 : Fin 1) q))
    ?_ ?_ ?_ ?_ ?_ p q
  · intro p k
    show V c (Pipeline.arrRef spec1 0) (((cfg1.win 0).blk t).view.emb (ix2 p k)) = V c (Pipeline.arrRef spec1 0) (ix2 (rowAt t p) k)
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · intro p k
    show V c (Pipeline.arrRef spec1 1) (((cfg1.win 1).blk t).view.emb (ix2 p k)) = V c (Pipeline.arrRef spec1 1) (ix2 (rowAt t p) k)
    refine congrArg _ (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega
  · funext y
    show V c (Pipeline.arrRef spec1 2) (((cfg1.win 2).blk t).view.emb y) = V c (Pipeline.arrRef spec1 2) y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 40 + 1 * (y 1).val = (y 1).val; omega
  · funext y
    show V c (Pipeline.arrRef spec1 4) (((cfg1.win 4).blk t).view.emb y) = V c (Pipeline.arrRef spec1 4) y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 40 + 1 * (y 1).val = (y 1).val; omega
  · funext k
    show V c (Pipeline.arrRef spec1 3) (((cfg1.win 3).blk t).view.emb (ix2 (0 : Fin 1) k)) = V c (Pipeline.arrRef spec1 3) (ix2 (0 : Fin 1) k)
    refine congrArg _ (funext fun a => Fin.ext ?_)
    match a with
    | ⟨0, _⟩ => show win1_3.index t (0 : Fin 2) * 1 + 1 * 0 = 0; omega
    | ⟨1, _⟩ => show win1_3.index t (1 : Fin 2) * 40 + 1 * k.val = k.val; omega

/-- An index of the output array is in point t's block iff each coordinate is in the block's range on its axis. -/
theorem mem_blk (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v40).slice (win1_5.rect t)).set ↔ _
  rw [View.set_slice_whole, Rect.mem_set_unit]
  exact Iff.rfl

/-- The 20 blocks of 5000 rows tile the 100000 rows: row r is in the block of point r / 5000. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- THE OUTPUT ARRAY after the region: the second layer of the arrays the region finds. -/
theorem final (c : Dev nD) : (dat1 (F := Ideal) V c).arrAt 5 cfg1.N = G V c :=
  (dat1 (F := Ideal) V c).arrAt_eq_of_cover 5 (G V c) (fun t _ => flushed_eq V c t) cover

end Cert.KernelIdeal.Cover2

end
-- ==== Proof.KHostFns.lean ====
/-
  The kernel program's host operations around its two kernel regions, grouped into functions.

  From the edge list `E` and a feature array `X`: the reciprocal of each node's clipped degree (one over the number of
  incoming edges, at least one), and the mean aggregation `aggr X E` — each target node's sum of its sources' feature
  rows (a gather along the sources, an accumulating scatter along the targets) TIMES that reciprocal, row by row.
  A bias vector enters a kernel as a one-row matrix. Each definition is the printed operations' own composition.
-/
import proofs.«178295_j49203145343455_1_alg».proof.Proof.Gen.KernelIdeal

noncomputable section

namespace Cert.KernelIdeal.HostFns

open Cert.KernelIdeal Cert.KernelIdeal.Gen Idealize.ShloMosaic

variable {F : FTy → Type} [FloatOps F]

/-- The source node of every edge as given. -/
def srcRaw (E : (⟨S2x1600000, .i32⟩ : BufTy).Contents (Elt F)) : (⟨S1600000, .i32⟩ : BufTy).Contents (Elt F) :=
  shapeCast _ (extractStridedSlice S1x1600000 ![0, 0] E slices_S2x1600000_S1x1600000_0_0) shapeCasts_S1x1600000_S1600000

/-- The target node of every edge as given. -/
def dstRaw (E : (⟨S2x1600000, .i32⟩ : BufTy).Contents (Elt F)) : (⟨S1600000, .i32⟩ : BufTy).Contents (Elt F) :=
  shapeCast _ (extractStridedSlice S1x1600000 ![1, 0] E slices_S2x1600000_S1x1600000_1_0) shapeCasts_S1x1600000_S1600000

/-- The target node of every edge, as a column of indices. -/
def dstIdx (E : (⟨S2x1600000, .i32⟩ : BufTy).Contents (Elt F)) : (⟨S1600000x1, .i32⟩ : BufTy).Contents (Elt F) :=
  broadcastInDim S1600000x1 ![0] bcast_S1600000_S1600000x1_0 (dstRaw (F := F) E)

/-- The source node of every edge, a negative index counted from the end, as a column of indices. -/
def srcIdx (E : (⟨S2x1600000, .i32⟩ : BufTy).Contents (Elt F)) : (⟨S1600000x1, .i32⟩ : BufTy).Contents (Elt F) :=
  broadcastInDim S1600000x1 ![0] bcast_S1600000_S1600000x1_0 (select (cmpi .slt (srcRaw (F := F) E) (broadcastInDim S1600000 ![] bcast_S_S1600000 (constantI S_ 32 0#32))) (addi (srcRaw (F := F) E) (broadcastInDim S1600000 ![] bcast_S_S1600000 (constantI S_ 32 100000#32))) (srcRaw (F := F) E))

/-- Each node's number of incoming edges, at least one. -/
def degClip (E : (⟨S2x1600000, .i32⟩ : BufTy).Contents (Elt F)) : (⟨S100000, .f32⟩ : BufTy).Contents (Elt F) :=
  maximumf (Host.scatterAdd scatter_S100000_S1600000x1_S1600000_n_0_0_1 (broadcastInDim S100000 ![] bcast_S_S100000 (constant S_ .f32 0x00000000#32)) (dstIdx (F := F) E) (broadcastInDim S1600000 ![] bcast_S_S1600000 (constant S_ .f32 0x3F800000#32))) (broadcastInDim S100000 ![] bcast_S_S100000 (constant S_ .f32 0x3F800000#32))

/-- One over the clipped degree, as a column. -/
def invDeg (E : (⟨S2x1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (degClip (F := F) E))

/-- Each target node's sum of its sources' feature rows. -/
def msg (X : (⟨S100000x128, .f32⟩ : BufTy).Contents (Elt F)) (E : (⟨S2x1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (dstIdx (F := F) E) (Host.gather gather_S100000x128_S1600000x1_S1600000x128_1_0_n_n_0_1_1128 X (srcIdx (F := F) E))

/-- The mean aggregation: the messages times the reciprocal of the clipped degree. -/
def aggr (X : (⟨S100000x128, .f32⟩ : BufTy).Contents (Elt F)) (E : (⟨S2x1600000, .i32⟩ : BufTy).Contents (Elt F)) : (⟨S100000x128, .f32⟩ : BufTy).Contents (Elt F) :=
  mulf (msg (F := F) X E) (broadcastInDim S100000x128 ![0, 1] bcast_S100000x1_S100000x128_0_1 (invDeg (F := F) E))

/-- The first layer's bias as a one-row matrix. -/
def bias1 (b : (⟨S128, .f32⟩ : BufTy).Contents (Elt F)) : (⟨S1x128, .f32⟩ : BufTy).Contents (Elt F) :=
  shapeCast _ b shapeCasts_S128_S1x128

/-- The second layer's bias as a one-row matrix. -/
def bias2 (b : (⟨S40, .f32⟩ : BufTy).Contents (Elt F)) : (⟨S1x40, .f32⟩ : BufTy).Contents (Elt F) :=
  shapeCast _ b shapeCasts_S40_S1x40

end Cert.KernelIdeal.HostFns

end
-- ==== Proof.KHost.lean ====
/-
  The kernel program's host operations, read back: what each kernel region finds in the arrays it reads.

  Before the first region the host operations leave, in the first region's arrays: the mean aggregation of the
  features along the edges, the features themselves, the first layer's weights, and its bias as a one-row matrix.
  Between the regions they leave, in the second region's arrays: the mean aggregation of the FIRST REGION'S OUTPUT
  along the same edges (the edge list's columns and the reciprocal degree are those computed before the first region:
  no region writes them), that output itself, the second layer's weights, and its bias as a one-row matrix.
-/
import proofs.«178295_j49203145343455_1_alg».proof.Proof.Gen.KernelIdeal.Frame
import proofs.«178295_j49203145343455_1_alg».proof.Proof.KHostFns
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the first stretch writes the reference: the list of inequalities of references, one by one. -/
local macro "unwritten0" : tactic => `(tactic| (
  refine List.forall_iff_forall_mem.mp ?_
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- No operation of the second stretch writes the reference. -/
local macro "unwritten1" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- After the first stretch the edge list's first row, flattened, is the source column as given. -/
theorem W1_v1 (c : Dev nD) :
    W1 m ρ c (Proc.devRef .tc main_v1) = HostFns.srcRaw (F := F) (m ((c : Thread nD τ).loc main_arg1)) := by
  show StableHlo.after hostOps0 (W0 m ρ c) (Proc.devRef .tc main_v1) = _
  after_results
  rfl

/-- After the first stretch the edge list's second row, flattened, is the target column as given. -/
theorem W1_v3 (c : Dev nD) :
    W1 m ρ c (Proc.devRef .tc main_v3) = HostFns.dstRaw (F := F) (m ((c : Thread nD τ).loc main_arg1)) := by
  show StableHlo.after hostOps0 (W0 m ρ c) (Proc.devRef .tc main_v3) = _
  after_results
  rfl

/-- After the first stretch the reciprocal of the clipped degree, as a column, is that of the edge list. -/
theorem W1_v12 (c : Dev nD) :
    W1 m ρ c (Proc.devRef .tc main_v12) = HostFns.invDeg (F := F) (m ((c : Thread nD τ).loc main_arg1)) := by
  show StableHlo.after hostOps0 (W0 m ρ c) (Proc.devRef .tc main_v12) = _
  after_results
  rfl

/-- The first region finds the mean aggregation of the features in its first array. -/
theorem V1_v24 (c : Dev nD) : V1 m ρ c main_v24
    = HostFns.aggr (F := F) (m ((c : Thread nD τ).loc main_arg0)) (m ((c : Thread nD τ).loc main_arg1)) := by
  show StableHlo.after hostOps0 (W0 m ρ c) (Proc.devRef .tc main_v24) = _
  after_results_simp
  rfl

/-- The first region finds the first layer's bias, as a one-row matrix. -/
theorem V1_v25 (c : Dev nD) : V1 m ρ c main_v25 = HostFns.bias1 (F := F) (m ((c : Thread nD τ).loc main_arg3)) := by
  show StableHlo.after hostOps0 (W0 m ρ c) (Proc.devRef .tc main_v25) = _
  after_results
  rfl

theorem V1_arg0 (c : Dev nD) : V1 m ρ c main_arg0 = m ((c : Thread nD τ).loc main_arg0) := by
  exact (StableHlo.after_of_forall_not_mem (b := Proc.devRef .tc main_arg0) _ _ (by unwritten0)).trans rfl
theorem V1_arg2 (c : Dev nD) : V1 m ρ c main_arg2 = m ((c : Thread nD τ).loc main_arg2) := by
  exact (StableHlo.after_of_forall_not_mem (b := Proc.devRef .tc main_arg2) _ _ (by unwritten0)).trans rfl
theorem V1_arg4 (c : Dev nD) : V1 m ρ c main_arg4 = m ((c : Thread nD τ).loc main_arg4) := by
  exact (StableHlo.after_of_forall_not_mem (b := Proc.devRef .tc main_arg4) _ _ (by unwritten0)).trans rfl

/-- The second region finds the mean aggregation of the first region's output in its first array. -/
theorem V3_v38 (c : Dev nD) : V3 m ρ c main_v38
    = HostFns.aggr (F := F) (V2 m ρ c main_v26) (m ((c : Thread nD τ).loc main_arg1)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    W1_v1, W1_v3, W1_v12]
  rfl

/-- The second region finds the first region's output as the first region left it. -/
theorem V3_v26 (c : Dev nD) : V3 m ρ c main_v26 = V2 m ρ c main_v26 := by
  exact StableHlo.after_of_forall_not_mem (b := Proc.devRef .tc main_v26) _ _ (by unwritten1)

/-- The second region finds the second layer's bias, as a one-row matrix. -/
theorem V3_v39 (c : Dev nD) : V3 m ρ c main_v39 = HostFns.bias2 (F := F) (m ((c : Thread nD τ).loc main_arg6)) := by
  show StableHlo.after hostOps1 (W2 m ρ c) (Proc.devRef .tc main_v39) = _
  after_results_simp
  rw [W2_of_ne m ρ c main_arg6 (by decide)]
  exact congrArg (fun b => HostFns.bias2 (F := F) b)
    ((StableHlo.after_of_forall_not_mem (b := Proc.devRef .tc main_arg6) _ _ (by unwritten0)).trans rfl)

theorem V3_arg5 (c : Dev nD) : V3 m ρ c main_arg5 = m ((c : Thread nD τ).loc main_arg5) := by
  exact calc V3 m ρ c main_arg5
    _ = W2 m ρ c (Proc.devRef .tc main_arg5) :=
        StableHlo.after_of_forall_not_mem (b := Proc.devRef .tc main_arg5) _ _ (by unwritten1)
    _ = W1 m ρ c (Proc.devRef .tc main_arg5) := W2_of_ne m ρ c main_arg5 (by decide)
    _ = W0 m ρ c (Proc.devRef .tc main_arg5) :=
        StableHlo.after_of_forall_not_mem (b := Proc.devRef .tc main_arg5) _ _ (by unwritten0)
    _ = m ((c : Thread nD τ).loc main_arg5) := rfl
theorem V3_arg7 (c : Dev nD) : V3 m ρ c main_arg7 = m ((c : Thread nD τ).loc main_arg7) := by
  exact calc V3 m ρ c main_arg7
    _ = W2 m ρ c (Proc.devRef .tc main_arg7) :=
        StableHlo.after_of_forall_not_mem (b := Proc.devRef .tc main_arg7) _ _ (by unwritten1)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (by unwritten0)
    _ = m ((c : Thread nD τ).loc main_arg7) := rfl

end Cert.KernelIdeal.HostRead

end
-- ==== Proof.KValue.lean ====
/-
  The kernel program's result, of the launch memory.

  The second region's output array ends at the second layer of the arrays that region finds; those are the mean
  aggregation of the FIRST region's output along the edges, that output, the second layer's weights and its bias row.
  The first region's output array ends at the first layer of the arrays the first region finds: the mean aggregation of
  the features, the features, the first layer's weights and its bias row. So the result buffer ends at

      layer2 (aggr H E) H Wl2 Wr2 b2   with   H = layer1 (aggr X E) X Wl1 Wr1 b1,

  functions of the launch memory alone.
-/
import proofs.«178295_j49203145343455_1_alg».proof.Proof.KernelRun
import proofs.«178295_j49203145343455_1_alg».proof.Proof.KCover1
import proofs.«178295_j49203145343455_1_alg».proof.Proof.KCover2
import proofs.«178295_j49203145343455_1_alg».proof.Proof.KHost

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's output, of the launch memory. -/
def hidden (c : Dev nD) : Vec Ideal S100000x128 .f32 :=
  Cert.Spec.layer1
    (HostFns.aggr (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (fun q => HostFns.bias1 (F := Ideal) (m ((c : Thread nD τ).loc main_arg3)) (ix2 (0 : Fin 1) q))

/-- The program's result, of the launch memory. -/
def result (c : Dev nD) : Vec Ideal S100000x40 .f32 :=
  Cert.Spec.layer2
    (HostFns.aggr (F := Ideal) (hidden m c) (m ((c : Thread nD τ).loc main_arg1)))
    (hidden m c) (m ((c : Thread nD τ).loc main_arg5)) (m ((c : Thread nD τ).loc main_arg7))
    (fun q => HostFns.bias2 (F := Ideal) (m ((c : Thread nD τ).loc main_arg6)) (ix2 (0 : Fin 1) q))

/-- A layer of equal arrays is equal. -/
theorem layer1_congr {N : Nat} {A A' X X' : (⟨2, ![N, 128]⟩ : Shape).Idx → EReal}
    {Wl Wl' Wr Wr' : (⟨2, ![128, 128]⟩ : Shape).Idx → EReal} {b b' : Fin 128 → EReal}
    (hA : A = A') (hX : X = X') (hWl : Wl = Wl') (hWr : Wr = Wr') (hb : b = b') :
    Cert.Spec.layer1 A X Wl Wr b = Cert.Spec.layer1 A' X' Wl' Wr' b' := by
  subst hA hX hWl hWr hb; rfl

theorem layer2_congr {N : Nat} {A A' H H' : (⟨2, ![N, 128]⟩ : Shape).Idx → EReal}
    {Wl Wl' Wr Wr' : (⟨2, ![128, 40]⟩ : Shape).Idx → EReal} {b b' : Fin 40 → EReal}
    (hA : A = A') (hH : H = H') (hWl : Wl = Wl') (hWr : Wr = Wr') (hb : b = b') :
    Cert.Spec.layer2 A H Wl Wr b = Cert.Spec.layer2 A' H' Wl' Wr' b' := by
  subst hA hH hWl hWr hb; rfl

/-- What the first region leaves in its output array. -/
theorem V2_v26 (c : Dev nD) : V2 m ρ c main_v26 = hidden m c :=
  (W2_arr m ρ c 5).trans ((Cover1.final (V1 m ρ) c).trans
    (layer1_congr (HostRead.V1_v24 m ρ c) (HostRead.V1_arg0 m ρ c) (HostRead.V1_arg2 m ρ c) (HostRead.V1_arg4 m ρ c)
      (funext fun q => congrFun (HostRead.V1_v25 m ρ c) (ix2 (0 : Fin 1) q))))

/-- What the second region leaves in its output array: the result. -/
theorem W4_v40 (c : Dev nD) : W4 m ρ c (Proc.devRef .tc main_v40) = result m c :=
  (W4_arr m ρ c 5).trans ((Cover2.final (V3 m ρ) c).trans
    (layer2_congr ((HostRead.V3_v38 m ρ c).trans (congrArg (fun h => HostFns.aggr (F := Ideal) h (m ((c : Thread nD τ).loc main_arg1))) (V2_v26 m ρ c)))
      ((HostRead.V3_v26 m ρ c).trans (V2_v26 m ρ c)) (HostRead.V3_arg5 m ρ c) (HostRead.V3_arg7 m ρ c)
      (funext fun q => congrFun (HostRead.V3_v39 m ρ c) (ix2 (0 : Fin 1) q))))

/-- The kernel program's run: every weakly fair execution terminates with the result buffer at `result` of the launch
    memory, the arguments unchanged. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v40 m ρ c), (h c).2⟩) (Named.run (F := Ideal) m ρ)

end Cert.KernelIdeal.KValue

end
-- ==== Proof.RefLayers.lean ====
/-
  The reference program's host operations, grouped into the functions the computation is made of.

  From the edge list `E` (row 0 the source nodes, row 1 the target nodes) and a feature array `X`:
  the messages (each target node's sum of its sources' feature rows: a gather along the sources, then an accumulating
  scatter along the targets), the clipped degree (each node's number of incoming edges, at least one), the mean
  aggregation `aggr X E` (messages divided by clipped degree, row by row); then a layer's linear form
  `A · Wl + b + X · Wr`, the clip at zero, and the logarithm of the soft maximum along each row.
  Each definition is the printed operations' own composition, in the printed order, so the program's result term
  unfolds to a composition of these (`RefValue.lean`).
-/
import proofs.«178295_j49203145343455_1_alg».proof.Proof.Gen.ReferenceIdeal

noncomputable section

namespace Cert.ReferenceIdeal.Layers

open Cert.ReferenceIdeal Cert.ReferenceIdeal.Gen Idealize.ShloMosaic

variable {F : FTy → Type} [FloatOps F]

/-- The target node of every edge, as a column of indices. -/
def dstIdx (E : (⟨S2x1600000, .i32⟩ : BufTy).Contents (Elt F)) : (⟨S1600000x1, .i32⟩ : BufTy).Contents (Elt F) :=
  broadcastInDim S1600000x1 ![0] bcast_S1600000_S1600000x1_0 (shapeCast _ (extractStridedSlice S1x1600000 ![1, 0] E slices_S2x1600000_S1x1600000_1_0) shapeCasts_S1x1600000_S1600000)

/-- The source node of every edge as given. -/
def srcRaw (E : (⟨S2x1600000, .i32⟩ : BufTy).Contents (Elt F)) : (⟨S1600000, .i32⟩ : BufTy).Contents (Elt F) :=
  shapeCast _ (extractStridedSlice S1x1600000 ![0, 0] E slices_S2x1600000_S1x1600000_0_0) shapeCasts_S1x1600000_S1600000

/-- The source node of every edge, a negative index counted from the end, as a column of indices. -/
def srcIdx (E : (⟨S2x1600000, .i32⟩ : BufTy).Contents (Elt F)) : (⟨S1600000x1, .i32⟩ : BufTy).Contents (Elt F) :=
  broadcastInDim S1600000x1 ![0] bcast_S1600000_S1600000x1_0 (select (cmpi .slt (srcRaw (F := F) E) (broadcastInDim S1600000 ![] bcast_S_S1600000 (constantI S_ 32 0#32))) (addi (srcRaw (F := F) E) (broadcastInDim S1600000 ![] bcast_S_S1600000 (constantI S_ 32 100000#32))) (srcRaw (F := F) E))

/-- Each node's number of incoming edges, at least one. -/
def degClip (E : (⟨S2x1600000, .i32⟩ : BufTy).Contents (Elt F)) : (⟨S100000, .f32⟩ : BufTy).Contents (Elt F) :=
  maximumf (Host.scatterAdd scatter_S100000_S1600000x1_S1600000_n_0_0_1 (broadcastInDim S100000 ![] bcast_S_S100000 (constant S_ .f32 0x00000000#32)) (dstIdx (F := F) E) (broadcastInDim S1600000 ![] bcast_S_S1600000 (constant S_ .f32 0x3F800000#32))) (broadcastInDim S100000 ![] bcast_S_S100000 (constant S_ .f32 0x3F800000#32))

/-- The clipped degree repeated along each node's row. -/
def degB (E : (⟨S2x1600000, .i32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 (degClip (F := F) E))

/-- Each target node's sum of its sources' feature rows. -/
def msg (X : (⟨S100000x128, .f32⟩ : BufTy).Contents (Elt F)) (E : (⟨S2x1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (dstIdx (F := F) E) (Host.gather gather_S100000x128_S1600000x1_S1600000x128_1_0_n_n_0_1_1128 X (srcIdx (F := F) E))

/-- The mean aggregation: the messages divided by the clipped degree. -/
def aggr (X : (⟨S100000x128, .f32⟩ : BufTy).Contents (Elt F)) (E : (⟨S2x1600000, .i32⟩ : BufTy).Contents (Elt F)) : (⟨S100000x128, .f32⟩ : BufTy).Contents (Elt F) :=
  Host.divf (msg (F := F) X E) (degB (F := F) E)

/-- The first layer's linear form `A · Wl + b + X · Wr`. -/
def lin1 (A X : (⟨S100000x128, .f32⟩ : BufTy).Contents (Elt F)) (Wl : (⟨S128x128, .f32⟩ : BufTy).Contents (Elt F)) (b : (⟨S128, .f32⟩ : BufTy).Contents (Elt F)) (Wr : (⟨S128x128, .f32⟩ : BufTy).Contents (Elt F)) : (⟨S100000x128, .f32⟩ : BufTy).Contents (Elt F) :=
  addf (addf (Host.dotGeneral dot_S100000x128_S128x128_S100000x128_1_0_0_1_n_n none A Wl) (broadcastInDim S100000x128 ![0, 1] bcast_S1x128_S100000x128_0_1 (broadcastInDim S1x128 ![1] bcast_S128_S1x128_1 b))) (Host.dotGeneral dot_S100000x128_S128x128_S100000x128_1_0_0_1_n_n none X Wr)

/-- The clip at zero. -/
def relu (Z : (⟨S100000x128, .f32⟩ : BufTy).Contents (Elt F)) : (⟨S100000x128, .f32⟩ : BufTy).Contents (Elt F) :=
  maximumf Z (broadcastInDim S100000x128 ![] bcast_S_S100000x128 (constant S_ .f32 0x00000000#32))

/-- The second layer's linear form `A · Wl + b + H · Wr`. -/
def lin2 (A H : (⟨S100000x128, .f32⟩ : BufTy).Contents (Elt F)) (Wl : (⟨S128x40, .f32⟩ : BufTy).Contents (Elt F)) (b : (⟨S40, .f32⟩ : BufTy).Contents (Elt F)) (Wr : (⟨S128x40, .f32⟩ : BufTy).Contents (Elt F)) : (⟨S100000x40, .f32⟩ : BufTy).Contents (Elt F) :=
  addf (addf (Host.dotGeneral dot_S100000x128_S128x40_S100000x40_1_0_0_1_n_n none A Wl) (broadcastInDim S100000x40 ![0, 1] bcast_S1x40_S100000x40_0_1 (broadcastInDim S1x40 ![1] bcast_S40_S1x40_1 b))) (Host.dotGeneral dot_S100000x128_S128x40_S100000x40_1_0_0_1_n_n none H Wr)

/-- A row less its maximum. -/
def shifted (Z : (⟨S100000x40, .f32⟩ : BufTy).Contents (Elt F)) : (⟨S100000x40, .f32⟩ : BufTy).Contents (Elt F) :=
  subf Z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf Z (constant S_ .f32 0xFF800000#32) reducesTo_S100000x40_S100000_d1 h_S_))))

/-- The logarithm of the soft maximum along each row. -/
def logSoftmax (Z : (⟨S100000x40, .f32⟩ : BufTy).Contents (Elt F)) : (⟨S100000x40, .f32⟩ : BufTy).Contents (Elt F) :=
  subf (shifted (F := F) Z) (broadcastInDim S100000x40 ![0, 1] bcast_S100000x1_S100000x40_0_1 (Host.log (broadcastInDim S100000x1 ![0] bcast_S100000_S100000x1_0 (Host.reduceAdd (Host.exp (shifted (F := F) Z)) (constant S_ .f32 0x00000000#32) reducesTo_S100000x40_S100000_d1 h_S_))))

end Cert.ReferenceIdeal.Layers

end
-- ==== Proof.RefValue.lean ====
/-
  The reference program's run, its result named by the functions the computation is made of.

  The program is 84 host operations in a line (the two called functions' operations standing at their calls). Read in
  four stretches — up to the first layer's linear form; the clip at zero; up to the second layer's linear form; the
  logarithm of the soft maximum — each stretch, from ANY contents of the buffers it reads, leaves in the buffer it
  ends at the corresponding function of those contents, and writes none of the buffers an earlier stretch's results
  are read from later. Composed: the result buffer ends at
  `logSoftmax (lin2 (aggr H E) H Wl2 b2 Wr2)` with `H = relu (lin1 (aggr X E) X Wl1 b1 Wr1)`, the arguments unchanged.
-/
import proofs.«178295_j49203145343455_1_alg».proof.Proof.RefRun
import proofs.«178295_j49203145343455_1_alg».proof.Proof.RefLayers
import Idealize.ShloMosaic.Lib.StableHlo.Run

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The first layer's output, of the launch memory. -/
def hidden (m : (ℓ : Loc nD τ sig) → Buf (Elt F) ℓ) (c : Dev nD) : (⟨S100000x128, .f32⟩ : BufTy).Contents (Elt F) :=
  Layers.relu (F := F) (Layers.lin1 (F := F)
    (Layers.aggr (F := F) (m ((c.tc : Thread nD τ).loc main_arg0)) (m ((c.tc : Thread nD τ).loc main_arg1)))
    (m ((c.tc : Thread nD τ).loc main_arg0)) (m ((c.tc : Thread nD τ).loc main_arg2))
    (m ((c.tc : Thread nD τ).loc main_arg3)) (m ((c.tc : Thread nD τ).loc main_arg4)))

/-- The program's result, of the launch memory. -/
def result (m : (ℓ : Loc nD τ sig) → Buf (Elt F) ℓ) (c : Dev nD) : (⟨S100000x40, .f32⟩ : BufTy).Contents (Elt F) :=
  Layers.logSoftmax (F := F) (Layers.lin2 (F := F)
    (Layers.aggr (F := F) (hidden m c) (m ((c.tc : Thread nD τ).loc main_arg1)))
    (hidden m c) (m ((c.tc : Thread nD τ).loc main_arg5))
    (m ((c.tc : Thread nD τ).loc main_arg6)) (m ((c.tc : Thread nD τ).loc main_arg7)))

/-! ## The operations in four stretches -/

abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)) ]

abbrev opsRelu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

abbrev opsB : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)),
    binary main_v48 main_arg5 main_v49 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)) ]

abbrev opsLS : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

theorem ops_split : (ops : List (HloOp τ sig (Elt F))) = opsA ++ opsRelu ++ opsB ++ opsLS := rfl

/-! ## Typed references: contents moved to a buffer's own type and back -/

/-- Moved to the buffer's type and back, contents are unchanged. -/
theorem ofBuf_toBuf {T : BufTy} (x : TRef sig T) (v : T.Contents (Elt F)) : x.ofBuf (x.toBuf v) = v := by
  rcases x with ⟨r, rfl, h2, h3⟩
  rfl

theorem in28 (v : (main_v28 : Ref sig .tc).ty.Contents (Elt F)) :
    (TRef.of (T := ⟨S100000x128, .f32⟩) main_v28).ofBuf v = v := rfl
theorem out29 (v : (⟨S100000x128, .f32⟩ : BufTy).Contents (Elt F)) :
    (TRef.of (T := ⟨S100000x128, .f32⟩) main_v29).toBuf v = v := rfl
theorem in54 (v : (main_v54 : Ref sig .tc).ty.Contents (Elt F)) :
    (TRef.of (T := ⟨S100000x40, .f32⟩) main_v54).ofBuf v = v := rfl
theorem out55 (v : (⟨S100000x40, .f32⟩ : BufTy).Contents (Elt F)) :
    (TRef.of (T := ⟨S100000x40, .f32⟩) main_v55).toBuf v = v := rfl

theorem relu_eq (V : Valuation τ sig (Elt F)) :
    after opsRelu V (main_v29 : DevRef τ sig) = Layers.relu (F := F) (V (main_v28 : DevRef τ sig)) := by
  after_results_simp
  simp only [ofBuf_toBuf]
  rw [in28, out29]
  rfl

theorem logSoftmax_eq (V : Valuation τ sig (Elt F)) :
    after opsLS V (main_v55 : DevRef τ sig) = Layers.logSoftmax (F := F) (V (main_v54 : DevRef τ sig)) := by
  after_results_simp
  simp only [ofBuf_toBuf]
  rw [in54, out55]
  unfold Layers.logSoftmax Layers.shifted
  rfl

/-! ## The aggregation, of the two edge columns -/

/-- The target node of every edge as given. -/
def dstRaw (E : (⟨S2x1600000, .i32⟩ : BufTy).Contents (Elt F)) : (⟨S1600000, .i32⟩ : BufTy).Contents (Elt F) :=
  shapeCast _ (extractStridedSlice S1x1600000 ![1, 0] E slices_S2x1600000_S1x1600000_1_0) shapeCasts_S1x1600000_S1600000

/-- The mean aggregation of a feature array along edges given by their two columns (sources as given, targets):
    each target's sum of its sources' rows, divided by its clipped number of incoming edges. -/
def aggrOf (X : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 X
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- Of an edge list's own two columns it is the aggregation along the edge list. -/
theorem aggrOf_raw (X : (⟨S100000x128, .f32⟩ : BufTy).Contents (Elt F)) (E : (⟨S2x1600000, .i32⟩ : BufTy).Contents (Elt F)) :
    aggrOf (F := F) X (Layers.srcRaw (F := F) E) (dstRaw (F := F) E) = Layers.aggr (F := F) X E := by
  unfold aggrOf Layers.aggr Layers.msg Layers.degB Layers.degClip Layers.dstIdx Layers.srcIdx dstRaw
  rfl

/-! ## The first and the third stretch -/

theorem srcRaw_eq (V : Valuation τ sig (Elt F)) :
    after opsA V (main_v1 : DevRef τ sig) = Layers.srcRaw (F := F) (V (main_arg1 : DevRef τ sig)) := by
  after_results_simp
  rfl

theorem dstRaw_eq (V : Valuation τ sig (Elt F)) :
    after opsA V (main_v3 : DevRef τ sig) = dstRaw (F := F) (V (main_arg1 : DevRef τ sig)) := by
  after_results_simp
  rfl

attribute [local irreducible] Host.scatterAdd Host.gather in
theorem lin1_eq (V : Valuation τ sig (Elt F)) :
    after opsA V (main_v28 : DevRef τ sig)
      = Layers.lin1 (F := F) (Layers.aggr (F := F) (V (main_arg0 : DevRef τ sig)) (V (main_arg1 : DevRef τ sig)))
          (V (main_arg0 : DevRef τ sig)) (V (main_arg2 : DevRef τ sig)) (V (main_arg3 : DevRef τ sig))
          (V (main_arg4 : DevRef τ sig)) := by
  after_results_simp
  rw [← aggrOf_raw]
  unfold Layers.lin1 aggrOf Layers.srcRaw dstRaw
  rfl

attribute [local irreducible] Host.scatterAdd Host.gather in
theorem lin2_eq (V : Valuation τ sig (Elt F)) :
    after opsB V (main_v54 : DevRef τ sig)
      = Layers.lin2 (F := F)
          (aggrOf (F := F) (V (main_v29 : DevRef τ sig)) (V (main_v1 : DevRef τ sig)) (V (main_v3 : DevRef τ sig)))
          (V (main_v29 : DevRef τ sig)) (V (main_arg5 : DevRef τ sig)) (V (main_arg6 : DevRef τ sig))
          (V (main_arg7 : DevRef τ sig)) := by
  after_results_simp
  unfold Layers.lin2 aggrOf
  rfl

/-! ## What a stretch leaves alone -/

/-- A buffer that none of a line's operations writes keeps its contents: each operation's written buffer is another
    reference than it. -/
local macro "keeps " l:ident : tactic =>
  `(tactic| (refine after_of_forall_not_mem _ _ (List.forall_iff_forall_mem.mp ?_)
             simp only [$l:ident, List.Forall, nullary_writes, unary_writes, binary_writes, ternary_writes, reshape_writes,
               Finset.mem_singleton]
             repeat' apply And.intro
             all_goals exact devRef_ne_of_ne (by decide)))

theorem relu_v1 (V : Valuation τ sig (Elt F)) : after opsRelu V (main_v1 : DevRef τ sig) = V (main_v1 : DevRef τ sig) := by
  keeps opsRelu
theorem relu_v3 (V : Valuation τ sig (Elt F)) : after opsRelu V (main_v3 : DevRef τ sig) = V (main_v3 : DevRef τ sig) := by
  keeps opsRelu
theorem relu_arg5 (V : Valuation τ sig (Elt F)) : after opsRelu V (main_arg5 : DevRef τ sig) = V (main_arg5 : DevRef τ sig) := by
  keeps opsRelu
theorem relu_arg6 (V : Valuation τ sig (Elt F)) : after opsRelu V (main_arg6 : DevRef τ sig) = V (main_arg6 : DevRef τ sig) := by
  keeps opsRelu
theorem relu_arg7 (V : Valuation τ sig (Elt F)) : after opsRelu V (main_arg7 : DevRef τ sig) = V (main_arg7 : DevRef τ sig) := by
  keeps opsRelu
theorem opsA_arg5 (V : Valuation τ sig (Elt F)) : after opsA V (main_arg5 : DevRef τ sig) = V (main_arg5 : DevRef τ sig) := by
  keeps opsA
theorem opsA_arg6 (V : Valuation τ sig (Elt F)) : after opsA V (main_arg6 : DevRef τ sig) = V (main_arg6 : DevRef τ sig) := by
  keeps opsA
theorem opsA_arg7 (V : Valuation τ sig (Elt F)) : after opsA V (main_arg7 : DevRef τ sig) = V (main_arg7 : DevRef τ sig) := by
  keeps opsA

theorem arg0_eq (V : Valuation τ sig (Elt F)) : after ops V (main_arg0 : DevRef τ sig) = V (main_arg0 : DevRef τ sig) := by
  keeps ops
theorem arg1_eq (V : Valuation τ sig (Elt F)) : after ops V (main_arg1 : DevRef τ sig) = V (main_arg1 : DevRef τ sig) := by
  keeps ops
theorem arg2_eq (V : Valuation τ sig (Elt F)) : after ops V (main_arg2 : DevRef τ sig) = V (main_arg2 : DevRef τ sig) := by
  keeps ops
theorem arg3_eq (V : Valuation τ sig (Elt F)) : after ops V (main_arg3 : DevRef τ sig) = V (main_arg3 : DevRef τ sig) := by
  keeps ops
theorem arg4_eq (V : Valuation τ sig (Elt F)) : after ops V (main_arg4 : DevRef τ sig) = V (main_arg4 : DevRef τ sig) := by
  keeps ops
theorem arg5_eq (V : Valuation τ sig (Elt F)) : after ops V (main_arg5 : DevRef τ sig) = V (main_arg5 : DevRef τ sig) := by
  keeps ops
theorem arg6_eq (V : Valuation τ sig (Elt F)) : after ops V (main_arg6 : DevRef τ sig) = V (main_arg6 : DevRef τ sig) := by
  keeps ops
theorem arg7_eq (V : Valuation τ sig (Elt F)) : after ops V (main_arg7 : DevRef τ sig) = V (main_arg7 : DevRef τ sig) := by
  keeps ops

/-! ## The four stretches composed -/

/-- A line run after another is the two run as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- From any contents, the whole line leaves in the result buffer the logarithm of the soft maximum of the second
    layer's linear form, of the aggregated first layer's output, of the arguments' contents. -/
theorem result_eq (V : Valuation τ sig (Elt F)) :
    after ops V (main_v55 : DevRef τ sig)
      = Layers.logSoftmax (F := F) (Layers.lin2 (F := F)
          (Layers.aggr (F := F)
            (Layers.relu (F := F) (Layers.lin1 (F := F)
              (Layers.aggr (F := F) (V (main_arg0 : DevRef τ sig)) (V (main_arg1 : DevRef τ sig)))
              (V (main_arg0 : DevRef τ sig)) (V (main_arg2 : DevRef τ sig)) (V (main_arg3 : DevRef τ sig))
              (V (main_arg4 : DevRef τ sig))))
            (V (main_arg1 : DevRef τ sig)))
          (Layers.relu (F := F) (Layers.lin1 (F := F)
            (Layers.aggr (F := F) (V (main_arg0 : DevRef τ sig)) (V (main_arg1 : DevRef τ sig)))
            (V (main_arg0 : DevRef τ sig)) (V (main_arg2 : DevRef τ sig)) (V (main_arg3 : DevRef τ sig))
            (V (main_arg4 : DevRef τ sig))))
          (V (main_arg5 : DevRef τ sig)) (V (main_arg6 : DevRef τ sig)) (V (main_arg7 : DevRef τ sig))) := by
  rw [ops_split, after_app, after_app, after_app, logSoftmax_eq, lin2_eq, relu_eq, relu_v1, relu_v3, relu_arg5, relu_arg6,
    relu_arg7, lin1_eq, srcRaw_eq, dstRaw_eq, opsA_arg5, opsA_arg6, opsA_arg7, aggrOf_raw]

/-- On every device, for any float values, from any memory with zero counters: every weakly fair execution of @main
    terminates with the result buffer at `result` of the launch memory and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = result (F := F) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (result_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _),
      (h c main_arg7).trans (arg7_eq _)⟩)
    (run_seq scopedRefs_eq scopedSems_eq defs main (fun _ => ops) main_eq (fun _ => ops_sub) m ρ)

end Cert.ReferenceIdeal.RefValue

end
-- ==== Proof.Aggr.lean ====
/-
  The two programs' mean aggregations are one function.

  Both take each target node's sum of its sources' feature rows (the same gather and the same accumulating scatter)
  and scale row `r` by the node's clipped degree `d_r` — the number of edges into `r`, at least one. One program
  multiplies by `1 / d_r`, the other divides by `d_r`. The clipped degree is a positive real: it is the maximum of one
  and a finite sum of ones added to zero. For a positive real `d`, `a · (1 / d) = a / d` for EVERY extended real `a`
  (the infinities included), so the two scalings agree entry by entry whatever the features hold.
  The two programs spell their shapes and side conditions by names of their own; each comparison below is between
  two spellings of one operation applied to the SAME operands (variables), never between two whole terms.
-/
import proofs.«178295_j49203145343455_1_alg».proof.Proof.KHostFns
import proofs.«178295_j49203145343455_1_alg».proof.Proof.RefLayers
import proofs.«178295_j49203145343455_1_alg».proof.Proof.Spec

noncomputable section

namespace Cert.Aggr

open Idealize.ShloMosaic Cert.Spec

abbrev EdgeArr : Type := (⟨Cert.ReferenceIdeal.S2x1600000, .i32⟩ : BufTy).Contents (Elt Ideal)
abbrev FeatArr : Type := (⟨Cert.ReferenceIdeal.S100000x128, .f32⟩ : BufTy).Contents (Elt Ideal)
abbrev NodeVec : Type := (⟨Cert.ReferenceIdeal.S100000, .f32⟩ : BufTy).Contents (Elt Ideal)
abbrev EdgeCol : Type := (⟨Cert.ReferenceIdeal.S1600000x1, .i32⟩ : BufTy).Contents (Elt Ideal)

/-- The two programs take the target column of the edge list by the same operations. -/
theorem dstIdx_eq (E : EdgeArr) :
    Cert.KernelIdeal.HostFns.dstIdx (F := Ideal) E = Cert.ReferenceIdeal.Layers.dstIdx (F := Ideal) E := rfl

/-- The two programs take the source column of the edge list by the same operations. -/
theorem srcIdx_eq (E : EdgeArr) :
    Cert.KernelIdeal.HostFns.srcIdx (F := Ideal) E = Cert.ReferenceIdeal.Layers.srcIdx (F := Ideal) E := rfl

/-- Counting the edges into each node and clipping at one: the two programs' spellings, at one column of targets. -/
theorem degClip_core (I : EdgeCol) :
    maximumf (F := Ideal) (Host.scatterAdd (F := Ideal) Cert.KernelIdeal.scatter_S100000_S1600000x1_S1600000_n_0_0_1 (broadcastInDim Cert.KernelIdeal.S100000 ![] Cert.KernelIdeal.Gen.bcast_S_S100000 (constant Cert.KernelIdeal.S_ .f32 0x00000000#32)) I (broadcastInDim Cert.KernelIdeal.S1600000 ![] Cert.KernelIdeal.Gen.bcast_S_S1600000 (constant Cert.KernelIdeal.S_ .f32 0x3F800000#32))) (broadcastInDim Cert.KernelIdeal.S100000 ![] Cert.KernelIdeal.Gen.bcast_S_S100000 (constant Cert.KernelIdeal.S_ .f32 0x3F800000#32))
      = maximumf (F := Ideal) (Host.scatterAdd (F := Ideal) Cert.ReferenceIdeal.scatter_S100000_S1600000x1_S1600000_n_0_0_1 (broadcastInDim Cert.ReferenceIdeal.S100000 ![] Cert.ReferenceIdeal.Gen.bcast_S_S100000 (constant Cert.ReferenceIdeal.S_ .f32 0x00000000#32)) I (broadcastInDim Cert.ReferenceIdeal.S1600000 ![] Cert.ReferenceIdeal.Gen.bcast_S_S1600000 (constant Cert.ReferenceIdeal.S_ .f32 0x3F800000#32))) (broadcastInDim Cert.ReferenceIdeal.S100000 ![] Cert.ReferenceIdeal.Gen.bcast_S_S100000 (constant Cert.ReferenceIdeal.S_ .f32 0x3F800000#32)) := rfl

/-- The two programs compute the clipped degree by the same operations. -/
theorem degClip_eq (E : EdgeArr) :
    Cert.KernelIdeal.HostFns.degClip (F := Ideal) E = Cert.ReferenceIdeal.Layers.degClip (F := Ideal) E := by
  unfold Cert.KernelIdeal.HostFns.degClip Cert.ReferenceIdeal.Layers.degClip
  rw [dstIdx_eq]
  exact degClip_core _

/-- Summing the sources' rows into the targets: the two programs' spellings, at one pair of index columns. -/
theorem msg_core (X : FeatArr) (I J : EdgeCol) :
    Host.scatterAdd (F := Ideal) Cert.KernelIdeal.scatter_S100000x128_S1600000x1_S1600000x128_1_0_0_1 (broadcastInDim Cert.KernelIdeal.S100000x128 ![] Cert.KernelIdeal.Gen.bcast_S_S100000x128 (constant Cert.KernelIdeal.S_ .f32 0x00000000#32)) I (Host.gather Cert.KernelIdeal.gather_S100000x128_S1600000x1_S1600000x128_1_0_n_n_0_1_1128 X J)
      = Host.scatterAdd (F := Ideal) Cert.ReferenceIdeal.scatter_S100000x128_S1600000x1_S1600000x128_1_0_0_1 (broadcastInDim Cert.ReferenceIdeal.S100000x128 ![] Cert.ReferenceIdeal.Gen.bcast_S_S100000x128 (constant Cert.ReferenceIdeal.S_ .f32 0x00000000#32)) I (Host.gather Cert.ReferenceIdeal.gather_S100000x128_S1600000x1_S1600000x128_1_0_n_n_0_1_1128 X J) := rfl

/-- The two programs compute the messages by the same operations. -/
theorem msg_eq (X : FeatArr) (E : EdgeArr) :
    Cert.KernelIdeal.HostFns.msg (F := Ideal) X E = Cert.ReferenceIdeal.Layers.msg (F := Ideal) X E := by
  unfold Cert.KernelIdeal.HostFns.msg Cert.ReferenceIdeal.Layers.msg
  rw [dstIdx_eq, srcIdx_eq]
  exact msg_core _ _ _

/-- The clipped degree is a positive real at every node: the maximum of a finite sum of ones (added to zero) and one. -/
theorem degClip_pos (E : EdgeArr) : AllPos (Cert.ReferenceIdeal.Layers.degClip (F := Ideal) E) := by
  unfold Cert.ReferenceIdeal.Layers.degClip
  exact AllPos.maximumf_right
    (AllReal.scatterAdd (AllReal.broadcastInDim AllReal.constant_zero) (AllReal.broadcastInDim AllPos.constant_one.allReal))
    (AllPos.broadcastInDim AllPos.constant_one)

/-- Scaling by the reciprocal against dividing, for ANY messages and any vector of positive reals: the one program
    repeats `1 / d` along each row and multiplies, the other repeats `d` along each row and divides; both repeat the
    same node's entry at an index. -/
theorem scale_eq (M : FeatArr) (d : NodeVec) (hd : AllPos d) :
    mulf (F := Ideal) M (broadcastInDim Cert.KernelIdeal.S100000x128 ![0, 1] Cert.KernelIdeal.Gen.bcast_S100000x1_S100000x128_0_1
        (broadcastInDim Cert.KernelIdeal.S100000x1 ![0] Cert.KernelIdeal.Gen.bcast_S100000_S100000x1_0
          (Host.divf (F := Ideal) (broadcastInDim Cert.KernelIdeal.S100000 ![] Cert.KernelIdeal.Gen.bcast_S_S100000 (constant Cert.KernelIdeal.S_ .f32 0x3F800000#32)) d)))
      = Host.divf (F := Ideal) M (broadcastInDim Cert.ReferenceIdeal.S100000x128 ![0, 1] Cert.ReferenceIdeal.Gen.bcast_S100000x1_S100000x128_0_1
        (broadcastInDim Cert.ReferenceIdeal.S100000x1 ![0] Cert.ReferenceIdeal.Gen.bcast_S100000_S100000x1_0 d)) := by
  funext i
  have key : ∃ a, (broadcastInDim Cert.KernelIdeal.S100000x128 ![0, 1] Cert.KernelIdeal.Gen.bcast_S100000x1_S100000x128_0_1
        (broadcastInDim Cert.KernelIdeal.S100000x1 ![0] Cert.KernelIdeal.Gen.bcast_S100000_S100000x1_0
          (Host.divf (F := Ideal) (broadcastInDim Cert.KernelIdeal.S100000 ![] Cert.KernelIdeal.Gen.bcast_S_S100000 (constant Cert.KernelIdeal.S_ .f32 0x3F800000#32)) d))) i
          = Ideal.div (Ideal.ofBits .f32 0x3F800000#32) (d a)
      ∧ (broadcastInDim Cert.ReferenceIdeal.S100000x128 ![0, 1] Cert.ReferenceIdeal.Gen.bcast_S100000x1_S100000x128_0_1
        (broadcastInDim Cert.ReferenceIdeal.S100000x1 ![0] Cert.ReferenceIdeal.Gen.bcast_S100000_S100000x1_0 d)) i = d a :=
    ⟨_, rfl, rfl⟩
  obtain ⟨a, h1, h2⟩ := key
  obtain ⟨r, hr, hda⟩ := hd a
  show M i * _ = Ideal.div (M i) _
  rw [h1, h2, hda]
  exact mul_recip_eq_div _ hr _ ofBits_f32_one

/-- Messages times the reciprocal of the clipped degree are messages divided by the clipped degree. -/
theorem aggr_eq (X : FeatArr) (E : EdgeArr) :
    Cert.KernelIdeal.HostFns.aggr (F := Ideal) X E = Cert.ReferenceIdeal.Layers.aggr (F := Ideal) X E := by
  unfold Cert.KernelIdeal.HostFns.aggr Cert.ReferenceIdeal.Layers.aggr Cert.KernelIdeal.HostFns.invDeg Cert.ReferenceIdeal.Layers.degB
  rw [msg_eq, degClip_eq]
  exact scale_eq _ _ (degClip_pos E)

end Cert.Aggr

end
-- ==== Proof.RefLayer1.lean ====
/-
  The reference's first layer, read at an index: the host's two contractions as sums over the 128 inner indices, the
  bias repeated along the rows, the clip at zero — entry (r, q) is the first layer's value at row r, column q.
-/
import proofs.«178295_j49203145343455_1_alg».proof.Proof.RefLayers
import proofs.«178295_j49203145343455_1_alg».proof.Proof.Spec
import Idealize.ShloMosaic.Lib.Pipeline.Value
import Idealize.ShloMosaic.Lib.ValueIdx
import Idealize.ShloMosaic.PureOps.Ideal.Laws

noncomputable section

namespace Cert.ReferenceIdeal.Layer1

open Cert.ReferenceIdeal Cert.ReferenceIdeal.Gen Idealize.ShloMosaic Idealize.ShloMosaic.ValueIdx
open scoped BigOperators

/-! ## The contraction's operand indices

  The contraction pairs axis 1 of the left operand with axis 0 of the right one; the left operand's axis 0 and the
  right operand's axis 1 are the result's two axes. So at result index `i` and contraction index `c` the left operand is
  read at (i₀, c) and the right one at (c, i₁). -/

/-- The left operand's row coordinate is the result's. -/
theorem lhs_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's column coordinate is the contracted index. -/
theorem lhs_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c

/-- The right operand's row coordinate is the contracted index. -/
theorem rhs_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c

/-- The right operand's column coordinate is the result's. -/
theorem rhs_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-! ## The operations read at an index -/

/-- A contraction at (r, q) is the sum over the 128 inner indices `k` of the left operand at (r, k) times the right
    operand at (k, q). -/
theorem dot_apply (Y : (⟨S100000x128, .f32⟩ : BufTy).Contents (Elt Ideal)) (W : (⟨S128x128, .f32⟩ : BufTy).Contents (Elt Ideal))
    (r : Fin 100000) (q : Fin 128) :
    Host.dotGeneral (F := Ideal) (φ₁ := .f32) (φ₂ := .f32) dot_S100000x128_S128x128_S100000x128_1_0_0_1_n_n none Y W (ix2 r q) = ∑ k : Fin 128, Y (ix2 r k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k :=
    funext fun a => Fin.ext (by
      match a with
      | ⟨0, _⟩ => exact lhs_0 _ _
      | ⟨1, _⟩ => exact (lhs_1 _ _).trans hk)
  have er : dot_S100000x128_S128x128_S100000x128_1_0_0_1_n_n.rhsIdx (ix2 r q) ((contrEquiv1 dot_S100000x128_S128x128_S100000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The bias, made a one-row array and then repeated along the rows, reads at (r, q) the bias's entry q. -/
theorem bias_apply (b : (⟨S128, .f32⟩ : BufTy).Contents (Elt Ideal)) (r : Fin 100000) (q : Fin 128) :
    broadcastInDim S100000x128 ![0, 1] bcast_S1x128_S100000x128_0_1 (broadcastInDim S1x128 ![1] bcast_S128_S1x128_1 b) (ix2 r q)
      = b (ix1 q) := by
  generalize hy : broadcastInDim S1x128 ![1] bcast_S128_S1x128_1 b = y
  refine (broadcastInDim_apply _ bcast_S1x128_S100000x128_0_1 y (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  subst hy
  exact broadcastInDim_apply _ bcast_S128_S1x128_1 b (ix2 (⟨0, Nat.one_pos⟩ : Fin 1) q) (ix1 q) (fun a => match a with
    | ⟨0, _⟩ => by show q.val = if (128 : Nat) = 1 then 0 else q.val; rw [if_neg (by decide)])

/-- The zero word repeated over the whole array reads the zero word's value everywhere. -/
theorem zero_apply (i : S100000x128.Idx) :
    broadcastInDim S100000x128 ![] bcast_S_S100000x128 (constant (F := Ideal) S_ .f32 0x00000000#32) i = Cert.Spec.zeroW := by
  generalize hy : constant (F := Ideal) S_ .f32 0x00000000#32 = y
  refine (broadcastInDim_apply _ bcast_S_S100000x128 y i (fun a => a.elim0) (fun a => a.elim0)).trans ?_
  subst hy
  rfl

/-- The reference's clipped linear form is the first layer of the whole arrays. -/
theorem layer1_eq (A X : (⟨S100000x128, .f32⟩ : BufTy).Contents (Elt Ideal)) (Wl : (⟨S128x128, .f32⟩ : BufTy).Contents (Elt Ideal))
    (b : (⟨S128, .f32⟩ : BufTy).Contents (Elt Ideal)) (Wr : (⟨S128x128, .f32⟩ : BufTy).Contents (Elt Ideal)) :
    Layers.relu (F := Ideal) (Layers.lin1 (F := Ideal) A X Wl b Wr) = Cert.Spec.layer1 A X Wl Wr (fun q => b (ix1 q)) := by
  funext i
  obtain ⟨r, q, rfl⟩ : ∃ (r : Fin 100000) (q : Fin 128), i = ix2 r q := ⟨_, _, eq_ix2 i⟩
  unfold Layers.relu Layers.lin1 Cert.Spec.layer1 Cert.Spec.lin
  simp only [maximumf_apply, addf_apply, Cert.Spec.rowOf_ix2, Cert.Spec.colOf_ix2]
  rw [dot_apply, dot_apply, bias_apply, zero_apply]

end Cert.ReferenceIdeal.Layer1

end
-- ==== Proof.RefLayer2.lean ====
/-
  The reference's second layer, read at an index: the linear form as in the first layer (40 columns); the host's
  reduction with a maximum body from minus infinity is the row's maximum, and one more maximum with minus infinity
  changes nothing; the host's sum from zero is the sum of the exponentials of the shifted row.
-/
import proofs.«178295_j49203145343455_1_alg».proof.Proof.RefLayers
import proofs.«178295_j49203145343455_1_alg».proof.Proof.Spec
import Idealize.ShloMosaic.Lib.Pipeline.Value
import Idealize.ShloMosaic.Lib.ValueIdx
import Idealize.ShloMosaic.PureOps.Ideal.Laws

noncomputable section

namespace Cert.ReferenceIdeal.Layer2

open Cert.ReferenceIdeal Cert.ReferenceIdeal.Gen Idealize.ShloMosaic Idealize.ShloMosaic.ValueIdx
open scoped BigOperators

/-! ## The two products, read at an index -/

theorem lhs_axis0 (i : S100000x40.Idx) (c : dot_S100000x128_S128x40_S100000x40_1_0_0_1_n_n.contr.Idx) :
    (dot_S100000x128_S128x40_S100000x40_1_0_0_1_n_n.lhsIdx i c 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl

theorem lhs_axis1 (i : S100000x40.Idx) (c : dot_S100000x128_S128x40_S100000x40_1_0_0_1_n_n.contr.Idx) :
    (dot_S100000x128_S128x40_S100000x40_1_0_0_1_n_n.lhsIdx i c 1).val = (c ⟨0, by decide⟩).val :=
  dot_S100000x128_S128x40_S100000x40_1_0_0_1_n_n.lhsIdx_val_of_single rfl i c

theorem rhs_axis0 (i : S100000x40.Idx) (c : dot_S100000x128_S128x40_S100000x40_1_0_0_1_n_n.contr.Idx) :
    (dot_S100000x128_S128x40_S100000x40_1_0_0_1_n_n.rhsIdx i c 0).val = (c ⟨0, by decide⟩).val :=
  dot_S100000x128_S128x40_S100000x40_1_0_0_1_n_n.rhsIdx_val_of_single rfl i c

theorem rhs_axis1 (i : S100000x40.Idx) (c : dot_S100000x128_S128x40_S100000x40_1_0_0_1_n_n.contr.Idx) :
    (dot_S100000x128_S128x40_S100000x40_1_0_0_1_n_n.rhsIdx i c 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- Entry (r, q) of a product of a 100000 × 128 array with a 128 × 40 one is the sum over k of the products. -/
theorem dot_apply (Y : (⟨S100000x128, .f32⟩ : BufTy).Contents (Elt Ideal)) (W : (⟨S128x40, .f32⟩ : BufTy).Contents (Elt Ideal))
    (r : Fin 100000) (q : Fin 40) :
    Host.dotGeneral (F := Ideal) (φ₁ := .f32) (φ₂ := .f32) dot_S100000x128_S128x40_S100000x40_1_0_0_1_n_n none Y W (ix2 r q)
      = ∑ k : Fin 128, Y (ix2 r k) * W (ix2 k q) := by
  simp only [Host.dotGeneral]
  rw [Ideal.dotGeneral_apply,
    ← Equiv.sum_comp (contrEquiv1 dot_S100000x128_S128x40_S100000x40_1_0_0_1_n_n 128 rfl rfl).symm]
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx (ix2 r q)
      ((contrEquiv1 dot_S100000x128_S128x40_S100000x40_1_0_0_1_n_n 128 rfl rfl).symm k) = ix2 r k :=
    funext fun a => Fin.ext (by
      match a with
      | ⟨0, _⟩ => exact lhs_axis0 _ _
      | ⟨1, _⟩ => exact (lhs_axis1 _ _).trans hk)
  have er : dot_S100000x128_S128x40_S100000x40_1_0_0_1_n_n.rhsIdx (ix2 r q)
      ((contrEquiv1 dot_S100000x128_S128x40_S100000x40_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-! ## The broadcasts, read at an index -/

/-- The bias repeated along every row, at (r, q), is entry q of the bias. -/
theorem bias_apply (b : (⟨S40, .f32⟩ : BufTy).Contents (Elt Ideal)) (r : Fin 100000) (q : Fin 40) :
    broadcastInDim S100000x40 ![0, 1] bcast_S1x40_S100000x40_0_1 (broadcastInDim S1x40 ![1] bcast_S40_S1x40_1 b) (ix2 r q)
      = b (ix1 q) := by
  refine (broadcastInDim_apply _ bcast_S1x40_S100000x40_0_1 _ (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])).trans ?_
  exact broadcastInDim_apply _ bcast_S40_S1x40_1 b (ix2 (0 : Fin 1) q) (ix1 q) (fun a => match a with
    | ⟨0, _⟩ => by show q.val = if (40 : Nat) = 1 then 0 else q.val; rw [if_neg (by decide)])

/-- A column repeated along 40 columns, at (r, q), is the column's entry r. -/
theorem col_apply (w : (⟨S100000x1, .f32⟩ : BufTy).Contents (Elt Ideal)) (r : Fin 100000) (q : Fin 40) :
    broadcastInDim S100000x40 ![0, 1] bcast_S100000x1_S100000x40_0_1 w (ix2 r q) = w (ix2 r (0 : Fin 1)) :=
  broadcastInDim_apply _ bcast_S100000x1_S100000x40_0_1 w (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector set as a column, at (r, 0), is the vector's entry r. -/
theorem asCol_apply (v : (⟨S100000, .f32⟩ : BufTy).Contents (Elt Ideal)) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A scalar repeated along a vector, at any entry, is the scalar. -/
theorem scalar_apply (c : (⟨S_, .f32⟩ : BufTy).Contents (Elt Ideal)) (i : S100000.Idx) :
    broadcastInDim S100000 ![] bcast_S_S100000 c i = c ix0 :=
  broadcastInDim_apply _ bcast_S_S100000 c i ix0 (fun a => a.elim0)

/-! ## The linear form -/

/-- Entry (r, q) of the reference's linear form is the specification's, of row r of the two feature arrays. -/
theorem lin2_apply (A H : (⟨S100000x128, .f32⟩ : BufTy).Contents (Elt Ideal)) (Wl : (⟨S128x40, .f32⟩ : BufTy).Contents (Elt Ideal))
    (b : (⟨S40, .f32⟩ : BufTy).Contents (Elt Ideal)) (Wr : (⟨S128x40, .f32⟩ : BufTy).Contents (Elt Ideal))
    (r : Fin 100000) (q : Fin 40) :
    Layers.lin2 (F := Ideal) A H Wl b Wr (ix2 r q)
      = Cert.Spec.lin (fun k => A (ix2 r k)) (fun k => H (ix2 r k)) Wl Wr (fun q => b (ix1 q)) q := by
  unfold Layers.lin2 Cert.Spec.lin
  rw [addf_apply, addf_apply, dot_apply, dot_apply, bias_apply]

/-! ## The reductions along a row -/

/-- The index of the one-axis result with coordinate k put back on the dropped axis is (r, k). -/
theorem lift_row (h : S100000x40.Reduces [1] S100000) (r : Fin 100000) (k : Fin (S100000x40.size 1)) :
    h.lift (ix1 r) k = ix2 r (⟨k.val, k.isLt⟩ : Fin 40) := by
  funext c
  apply Fin.ext
  fin_cases c <;> rfl

/-- The reduction with a maximum body along axis 1, from minus infinity, at r, is the largest entry of row r. -/
theorem reduceMax_apply (Z : (⟨S100000x40, .f32⟩ : BufTy).Contents (Elt Ideal)) (r : Fin 100000) :
    Host.reduce FloatOps.maximumf Z (constant (F := Ideal) S_ .f32 0xFF800000#32) reducesTo_S100000x40_S100000_d1 h_S_ (ix1 r)
      = Cert.Spec.rowMax (fun j => Z (ix2 r j)) := by
  have h : S100000x40.Reduces [1] S100000 := by decide
  refine (Host.reduce_eq_fold_single (α := Ideal .f32) (s := S100000x40) (t := S100000) (a := 1) (u := S_) FloatOps.maximumf Z
    (constant (F := Ideal) S_ .f32 0xFF800000#32) reducesTo_S100000x40_S100000_d1 h h_S_ (ix1 r)).trans ?_
  have hf : (Z ∘ h.lift (ix1 r)) = fun j : Fin 40 => Z (ix2 r j) := funext fun k => congrArg Z (lift_row h r k)
  unfold Cert.Spec.rowMax
  exact congrArg (fun f => Finset.fold max Cert.Spec.negInfW f (Finset.univ : Finset (Fin 40))) hf

/-- The sum along axis 1, from zero, at r, is the sum of row r. -/
theorem reduceAdd_apply (Y : (⟨S100000x40, .f32⟩ : BufTy).Contents (Elt Ideal)) (r : Fin 100000) :
    Host.reduceAdd (F := Ideal) Y (constant (F := Ideal) S_ .f32 0x00000000#32) reducesTo_S100000x40_S100000_d1 h_S_ (ix1 r)
      = ∑ k : Fin 40, Y (ix2 r k) := by
  have h : S100000x40.Reduces [1] S100000 := by decide
  simp only [Host.reduceAdd, Ideal.hostReduceAdd_def]
  rw [Ideal.hostReduceAdd_single reducesTo_S100000x40_S100000_d1 h, constant_apply, Ideal.ofBits_zero_f32, zero_add]
  exact Finset.sum_congr rfl fun k _ => congrArg Y (lift_row h r k)

/-! ## A row less its maximum, and the logarithm of the soft maximum -/

/-- The exponential of an array, at an index, is the exponential of the entry. -/
theorem exp_apply {s : Shape} (x : FVec Ideal s .f32) (i : s.Idx) : Host.exp (F := Ideal) x i = Ideal.exp (x i) := rfl

/-- The logarithm of an array, at an index, is the logarithm of the entry. -/
theorem log_apply {s : Shape} (x : FVec Ideal s .f32) (i : s.Idx) : Host.log (F := Ideal) x i = Ideal.log (x i) := rfl

/-- Entry (r, q) of the shifted array is the entry less the largest entry of its row. -/
theorem shifted_apply (Z : (⟨S100000x40, .f32⟩ : BufTy).Contents (Elt Ideal)) (r : Fin 100000) (q : Fin 40) :
    Layers.shifted (F := Ideal) Z (ix2 r q) = Z (ix2 r q) - Cert.Spec.rowMax (fun j => Z (ix2 r j)) := by
  unfold Layers.shifted
  rw [subf_apply, col_apply, asCol_apply, maximumf_apply, scalar_apply, constant_apply, reduceMax_apply]
  exact congrArg (Z (ix2 r q) - ·) (Cert.Spec.max_negInfW_rowMax _)

/-- Entry (r, q) of the reference's logarithm of the soft maximum is the specification's, of row r. -/
theorem logSoftmax_apply (Z : (⟨S100000x40, .f32⟩ : BufTy).Contents (Elt Ideal)) (r : Fin 100000) (q : Fin 40) :
    Layers.logSoftmax (F := Ideal) Z (ix2 r q) = Cert.Spec.logSoftmaxRow (fun j => Z (ix2 r j)) q := by
  unfold Layers.logSoftmax Cert.Spec.logSoftmaxRow
  rw [subf_apply, shifted_apply, col_apply]
  rw [log_apply, asCol_apply, reduceAdd_apply]
  refine congrArg (fun t => (Z (ix2 r q) - Cert.Spec.rowMax (fun j => Z (ix2 r j))) - Ideal.log t) ?_
  refine Finset.sum_congr rfl fun k _ => ?_
  rw [exp_apply, shifted_apply]

/-- The reference's logarithm of the soft maximum of the linear form is the second layer of the whole arrays. -/
theorem layer2_eq (A H : (⟨S100000x128, .f32⟩ : BufTy).Contents (Elt Ideal)) (Wl : (⟨S128x40, .f32⟩ : BufTy).Contents (Elt Ideal))
    (b : (⟨S40, .f32⟩ : BufTy).Contents (Elt Ideal)) (Wr : (⟨S128x40, .f32⟩ : BufTy).Contents (Elt Ideal)) :
    Layers.logSoftmax (F := Ideal) (Layers.lin2 (F := Ideal) A H Wl b Wr) = Cert.Spec.layer2 A H Wl Wr (fun q => b (ix1 q)) := by
  funext i
  obtain ⟨r, q, rfl⟩ : ∃ (r : Fin 100000) (q : Fin 40), i = ix2 r q := ⟨_, _, eq_ix2 i⟩
  rw [logSoftmax_apply]
  unfold Cert.Spec.layer2
  simp only [Cert.Spec.rowOf_ix2, Cert.Spec.colOf_ix2]
  exact congrArg (fun z => Cert.Spec.logSoftmaxRow z q) (funext fun j => lin2_apply A H Wl b Wr r j)

end Cert.ReferenceIdeal.Layer2

end
-- ==== Proof.Bridge.lean ====
/-
  The two programs compute one function.

  For any features `X`, edge list `E`, weights and biases: the first layer of (the mean aggregation of `X` by
  reciprocal scaling, `X`) with the bias read off its one-row matrix is the reference's clipped linear form of (the mean
  aggregation of `X` by division, `X`) — the two aggregations are one array, a bias vector reshaped to one row reads
  back the vector, and the reference's clipped linear form is the first layer. The same for the second layer over any
  hidden array `H`. Composed with `H` the first layer's output, the kernel program's result and the reference's agree.
-/
import proofs.«178295_j49203145343455_1_alg».proof.Proof.Aggr
import proofs.«178295_j49203145343455_1_alg».proof.Proof.RefLayer1
import proofs.«178295_j49203145343455_1_alg».proof.Proof.RefLayer2
import Idealize.ShloMosaic.Lib.ValueLayout

noncomputable section

namespace Cert.Bridge

open Idealize.ShloMosaic Idealize.ShloMosaic.ValueIdx

abbrev FeatArr : Type := (⟨Cert.ReferenceIdeal.S100000x128, .f32⟩ : BufTy).Contents (Elt Ideal)
abbrev EdgeArr : Type := (⟨Cert.ReferenceIdeal.S2x1600000, .i32⟩ : BufTy).Contents (Elt Ideal)
abbrev W1Arr : Type := (⟨Cert.ReferenceIdeal.S128x128, .f32⟩ : BufTy).Contents (Elt Ideal)
abbrev B1Vec : Type := (⟨Cert.ReferenceIdeal.S128, .f32⟩ : BufTy).Contents (Elt Ideal)
abbrev W2Arr : Type := (⟨Cert.ReferenceIdeal.S128x40, .f32⟩ : BufTy).Contents (Elt Ideal)
abbrev B2Vec : Type := (⟨Cert.ReferenceIdeal.S40, .f32⟩ : BufTy).Contents (Elt Ideal)

/-- A vector of 128 entries reshaped to one row reads back, along that row, the vector. -/
theorem bias1_read (b : B1Vec) :
    (fun q : Fin 128 => Cert.KernelIdeal.HostFns.bias1 (F := Ideal) b (ix2 (0 : Fin 1) q)) = fun q => b (ix1 q) := by
  funext q
  unfold Cert.KernelIdeal.HostFns.bias1
  exact shapeCast_a_1a_apply b _ 0 q

/-- A vector of 40 entries reshaped to one row reads back, along that row, the vector. -/
theorem bias2_read (b : B2Vec) :
    (fun q : Fin 40 => Cert.KernelIdeal.HostFns.bias2 (F := Ideal) b (ix2 (0 : Fin 1) q)) = fun q => b (ix1 q) := by
  funext q
  unfold Cert.KernelIdeal.HostFns.bias2
  exact shapeCast_a_1a_apply b _ 0 q

/-- The kernel program's first layer is the reference's. -/
theorem hidden_eq (X : FeatArr) (E : EdgeArr) (Wl : W1Arr) (b : B1Vec) (Wr : W1Arr) :
    Cert.Spec.layer1 (Cert.KernelIdeal.HostFns.aggr (F := Ideal) X E) X Wl Wr
        (fun q => Cert.KernelIdeal.HostFns.bias1 (F := Ideal) b (ix2 (0 : Fin 1) q))
      = Cert.ReferenceIdeal.Layers.relu (F := Ideal)
          (Cert.ReferenceIdeal.Layers.lin1 (F := Ideal) (Cert.ReferenceIdeal.Layers.aggr (F := Ideal) X E) X Wl b Wr) := by
  rw [Cert.ReferenceIdeal.Layer1.layer1_eq, Cert.Aggr.aggr_eq, bias1_read]

/-- The kernel program's second layer is the reference's, over any hidden array. -/
theorem result_eq (H : FeatArr) (E : EdgeArr) (Wl : W2Arr) (b : B2Vec) (Wr : W2Arr) :
    Cert.Spec.layer2 (Cert.KernelIdeal.HostFns.aggr (F := Ideal) H E) H Wl Wr
        (fun q => Cert.KernelIdeal.HostFns.bias2 (F := Ideal) b (ix2 (0 : Fin 1) q))
      = Cert.ReferenceIdeal.Layers.logSoftmax (F := Ideal)
          (Cert.ReferenceIdeal.Layers.lin2 (F := Ideal) (Cert.ReferenceIdeal.Layers.aggr (F := Ideal) H E) H Wl b Wr) := by
  rw [Cert.ReferenceIdeal.Layer2.layer2_eq, Cert.Aggr.aggr_eq, bias2_read]

end Cert.Bridge

end
-- ==== Proof.lean ====
/-
  Two graph-convolution layers with mean aggregation, a clip at zero between them and the logarithm of a soft maximum
  after: the kernel program against its plain reference, over the extended reals.

  Both programs gather each edge's source row, sum the rows into the edge's target node, and scale each node's sum
  by its clipped degree `d` (the number of incoming edges, at least one): the kernel program multiplies by `1 / d`,
  the reference divides by `d`. Since `d` is a positive real, `a · (1 / d) = a / d` for every extended real `a`, so
  the two aggregations are one array (Proof/Aggr.lean). Each layer is then `A · Wl + b + X · Wr` row by row. The kernel
  program computes a layer block of 5000 rows by block, as sums of products into a zero accumulator; the reference on
  the whole arrays, as a contraction. Entry (r, q) of a layer depends on row `r` only, so the blocks written back tile
  the whole layer (Proof/KCover1.lean, Proof/KCover2.lean over the bodies read in Proof/KPay1.lean, Proof/KPay2.lean),
  and both sides are the row functions of Proof/Spec.lean (the reference's by Proof/RefLayer1.lean,
  Proof/RefLayer2.lean; its extra maximum with minus infinity is idle). Narrowing a product's operands to a shorter
  float format is the identity over the extended reals. Hence equal results (Proof/Bridge.lean); no finiteness of the
  inputs is used.
  The frames of the two kernel programs are the generated ones; the reference's frame is its run with the result dropped.
  The idealized kernel program is the kernel program's own text (the ledger is empty).
-/
import proofs.«178295_j49203145343455_1_alg».proof.Defs
import proofs.«178295_j49203145343455_1_alg».proof.Proof.Gen.Kernel
import proofs.«178295_j49203145343455_1_alg».proof.Proof.Gen.Kernel.Skeleton
import proofs.«178295_j49203145343455_1_alg».proof.Proof.Gen.Kernel.Launch
import proofs.«178295_j49203145343455_1_alg».proof.Proof.Gen.Kernel.Points
import proofs.«178295_j49203145343455_1_alg».proof.Proof.Gen.Kernel.Frame
import proofs.«178295_j49203145343455_1_alg».proof.Proof.Gen.KernelIdeal
import proofs.«178295_j49203145343455_1_alg».proof.Proof.Gen.KernelIdeal.Skeleton
import proofs.«178295_j49203145343455_1_alg».proof.Proof.Gen.KernelIdeal.Launch
import proofs.«178295_j49203145343455_1_alg».proof.Proof.Gen.KernelIdeal.Points
import proofs.«178295_j49203145343455_1_alg».proof.Proof.Gen.KernelIdeal.Frame
import proofs.«178295_j49203145343455_1_alg».proof.Proof.Gen.ReferenceIdeal
import proofs.«178295_j49203145343455_1_alg».proof.Proof.Gen.Pre_finite_inputs
import proofs.«178295_j49203145343455_1_alg».proof.Proof.KValue
import proofs.«178295_j49203145343455_1_alg».proof.Proof.RefValue
import proofs.«178295_j49203145343455_1_alg».proof.Proof.Bridge
import Idealize.ShloMosaic.Adequacy
import Idealize.ShloMosaic.Init

noncomputable section

namespace Cert.Proof

open Idealize.ShloMosaic Idealize.SL.Sem

/-- The two programs' results, of launch memories that agree on the arguments, are equal: the bridge at the two
    hidden arrays, which are equal by the bridge at the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.result (F := Ideal) m' c = Cert.KernelIdeal.KValue.result m c := by
  have hh : Cert.ReferenceIdeal.RefValue.hidden (F := Ideal) m' c = Cert.KernelIdeal.KValue.hidden m c := by
    unfold Cert.ReferenceIdeal.RefValue.hidden Cert.KernelIdeal.KValue.hidden
    rw [h0, h1, h2, h3, h4]
    exact (Cert.Bridge.hidden_eq _ _ _ _ _).symm
  unfold Cert.ReferenceIdeal.RefValue.result Cert.KernelIdeal.KValue.result
  rw [hh, h1, h5, h6, h7]
  exact (Cert.Bridge.result_eq _ _ _ _ _).symm

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both runs end, with the kernel program's result of the launch memory in both result buffers. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7⟩ := hagree c
  exact results_eq m m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
